-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S16x1024x33 : Shape := ⟨3, ![16, 1024, 33]⟩
abbrev S16x2048x33 : Shape := ⟨3, ![16, 2048, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S4096x33 : Shape := ⟨2, ![4096, 33]⟩
abbrev S2048x128 : Shape := ⟨2, ![2048, 128]⟩
abbrev S2048x33 : Shape := ⟨2, ![2048, 33]⟩
abbrev S33x128 : Shape := ⟨2, ![33, 128]⟩
abbrev S128x32 : Shape := ⟨2, ![128, 32]⟩
abbrev S2048x32 : Shape := ⟨2, ![2048, 32]⟩
abbrev S1024x32 : Shape := ⟨2, ![1024, 32]⟩
abbrev S1024x1 : Shape := ⟨2, ![1024, 1]⟩
abbrev S1024x65 : Shape := ⟨2, ![1024, 65]⟩
abbrev S65x128 : Shape := ⟨2, ![65, 128]⟩
abbrev S1024x128 : Shape := ⟨2, ![1024, 128]⟩
abbrev S128x128 : Shape := ⟨2, ![128, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S16x1024x33, .bf16⟩
  | .hbm, ⟨17, _⟩ => ⟨S16x1024x33, .bf16⟩
  | .hbm, ⟨18, _⟩ => ⟨S16x2048x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S4096x33, .bf16⟩
  | .local _ .vmem, ⟨1, _⟩ => ⟨S4096x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S16x1024x33 : S16384x33.ShapeCasts S16x1024x33
  concatenates_S16x1024x33_S16x1024x33_S16x2048x33_d1 : Shape.Concatenates [S16x1024x33, S16x1024x33] S16x2048x33 1
  shapeCasts_S16x2048x33_S32768x33 : S16x2048x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S4096x33_S2048x33_0_0 : ∀ a, (![0, 0] : Fin 2 → Nat) a + S2048x33.size a ≤ S4096x33.size a
  h_S2048x33 : 0 < S2048x33.numel
  shapeCasts_S2048x33_S2048x33 : S2048x33.ShapeCasts S2048x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x128_0_0 : ∀ a, (![0, 0] : Fin 2 → Nat) a + S33x128.size a ≤ S33x4096.size a
  h_S33x128 : 0 < S33x128.numel
  shapeCasts_S33x128_S33x128 : S33x128.ShapeCasts S33x128
  inb_S4096x32_S128x32_0_0 : ∀ a, (![0, 0] : Fin 2 → Nat) a + S128x32.size a ≤ S4096x32.size a
  h_S128x32 : 0 < S128x32.numel
  shapeCasts_S128x32_S128x32 : S128x32.ShapeCasts S128x32
  broadcasts_S1x32_S2048x32 : S1x32.Broadcasts S2048x32
  inb_S33x4096_S33x128_0_128 : ∀ a, (![0, 128] : Fin 2 → Nat) a + S33x128.size a ≤ S33x4096.size a
  inb_S4096x32_S128x32_128_0 : ∀ a, (![128, 0] : Fin 2 → Nat) a + S128x32.size a ≤ S4096x32.size a
  inb_S33x4096_S33x128_0_256 : ∀ a, (![0, 256] : Fin 2 → Nat) a + S33x128.size a ≤ S33x4096.size a
  inb_S4096x32_S128x32_256_0 : ∀ a, (![256, 0] : Fin 2 → Nat) a + S128x32.size a ≤ S4096x32.size a
  inb_S33x4096_S33x128_0_384 : ∀ a, (![0, 384] : Fin 2 → Nat) a + S33x128.size a ≤ S33x4096.size a
  inb_S4096x32_S128x32_384_0 : ∀ a, (![384, 0] : Fin 2 → Nat) a + S128x32.size a ≤ S4096x32.size a
  inb_S33x4096_S33x128_0_512 : ∀ a, (![0, 512] : Fin 2 → Nat) a + S33x128.size a ≤ S33x4096.size a
  inb_S4096x32_S128x32_512_0 : ∀ a, (![512, 0] : Fin 2 → Nat) a + S128x32.size a ≤ S4096x32.size a
  inb_S33x4096_S33x128_0_640 : ∀ a, (![0, 640] : Fin 2 → Nat) a + S33x128.size a ≤ S33x4096.size a
  inb_S4096x32_S128x32_640_0 : ∀ a, (![640, 0] : Fin 2 → Nat) a + S128x32.size a ≤ S4096x32.size a
  inb_S33x4096_S33x128_0_768 : ∀ a, (![0, 768] : Fin 2 → Nat) a + S33x128.size a ≤ S33x4096.size a
  inb_S4096x32_S128x32_768_0 : ∀ a, (![768, 0] : Fin 2 → Nat) a + S128x32.size a ≤ S4096x32.size a
  inb_S33x4096_S33x128_0_896 : ∀ a, (![0, 896] : Fin 2 → Nat) a + S33x128.size a ≤ S33x4096.size a
  inb_S4096x32_S128x32_896_0 : ∀ a, (![896, 0] : Fin 2 → Nat) a + S128x32.size a ≤ S4096x32.size a
  inb_S33x4096_S33x128_0_1024 : ∀ a, (![0, 1024] : Fin 2 → Nat) a + S33x128.size a ≤ S33x4096.size a
  inb_S4096x32_S128x32_1024_0 : ∀ a, (![1024, 0] : Fin 2 → Nat) a + S128x32.size a ≤ S4096x32.size a
  inb_S33x4096_S33x128_0_1152 : ∀ a, (![0, 1152] : Fin 2 → Nat) a + S33x128.size a ≤ S33x4096.size a
  inb_S4096x32_S128x32_1152_0 : ∀ a, (![1152, 0] : Fin 2 → Nat) a + S128x32.size a ≤ S4096x32.size a
  inb_S33x4096_S33x128_0_1280 : ∀ a, (![0, 1280] : Fin 2 → Nat) a + S33x128.size a ≤ S33x4096.size a
  inb_S4096x32_S128x32_1280_0 : ∀ a, (![1280, 0] : Fin 2 → Nat) a + S128x32.size a ≤ S4096x32.size a
  inb_S33x4096_S33x128_0_1408 : ∀ a, (![0, 1408] : Fin 2 → Nat) a + S33x128.size a ≤ S33x4096.size a
  inb_S4096x32_S128x32_1408_0 : ∀ a, (![1408, 0] : Fin 2 → Nat) a + S128x32.size a ≤ S4096x32.size a
  inb_S33x4096_S33x128_0_1536 : ∀ a, (![0, 1536] : Fin 2 → Nat) a + S33x128.size a ≤ S33x4096.size a
  inb_S4096x32_S128x32_1536_0 : ∀ a, (![1536, 0] : Fin 2 → Nat) a + S128x32.size a ≤ S4096x32.size a
  inb_S33x4096_S33x128_0_1664 : ∀ a, (![0, 1664] : Fin 2 → Nat) a + S33x128.size a ≤ S33x4096.size a
  inb_S4096x32_S128x32_1664_0 : ∀ a, (![1664, 0] : Fin 2 → Nat) a + S128x32.size a ≤ S4096x32.size a
  inb_S33x4096_S33x128_0_1792 : ∀ a, (![0, 1792] : Fin 2 → Nat) a + S33x128.size a ≤ S33x4096.size a
  inb_S4096x32_S128x32_1792_0 : ∀ a, (![1792, 0] : Fin 2 → Nat) a + S128x32.size a ≤ S4096x32.size a
  inb_S33x4096_S33x128_0_1920 : ∀ a, (![0, 1920] : Fin 2 → Nat) a + S33x128.size a ≤ S33x4096.size a
  inb_S4096x32_S128x32_1920_0 : ∀ a, (![1920, 0] : Fin 2 → Nat) a + S128x32.size a ≤ S4096x32.size a
  inb_S33x4096_S33x128_0_2048 : ∀ a, (![0, 2048] : Fin 2 → Nat) a + S33x128.size a ≤ S33x4096.size a
  inb_S4096x32_S128x32_2048_0 : ∀ a, (![2048, 0] : Fin 2 → Nat) a + S128x32.size a ≤ S4096x32.size a
  inb_S33x4096_S33x128_0_2176 : ∀ a, (![0, 2176] : Fin 2 → Nat) a + S33x128.size a ≤ S33x4096.size a
  inb_S4096x32_S128x32_2176_0 : ∀ a, (![2176, 0] : Fin 2 → Nat) a + S128x32.size a ≤ S4096x32.size a
  inb_S33x4096_S33x128_0_2304 : ∀ a, (![0, 2304] : Fin 2 → Nat) a + S33x128.size a ≤ S33x4096.size a
  inb_S4096x32_S128x32_2304_0 : ∀ a, (![2304, 0] : Fin 2 → Nat) a + S128x32.size a ≤ S4096x32.size a
  inb_S33x4096_S33x128_0_2432 : ∀ a, (![0, 2432] : Fin 2 → Nat) a + S33x128.size a ≤ S33x4096.size a
  inb_S4096x32_S128x32_2432_0 : ∀ a, (![2432, 0] : Fin 2 → Nat) a + S128x32.size a ≤ S4096x32.size a
  inb_S33x4096_S33x128_0_2560 : ∀ a, (![0, 2560] : Fin 2 → Nat) a + S33x128.size a ≤ S33x4096.size a
  inb_S4096x32_S128x32_2560_0 : ∀ a, (![2560, 0] : Fin 2 → Nat) a + S128x32.size a ≤ S4096x32.size a
  inb_S33x4096_S33x128_0_2688 : ∀ a, (![0, 2688] : Fin 2 → Nat) a + S33x128.size a ≤ S33x4096.size a
  inb_S4096x32_S128x32_2688_0 : ∀ a, (![2688, 0] : Fin 2 → Nat) a + S128x32.size a ≤ S4096x32.size a
  inb_S33x4096_S33x128_0_2816 : ∀ a, (![0, 2816] : Fin 2 → Nat) a + S33x128.size a ≤ S33x4096.size a
  inb_S4096x32_S128x32_2816_0 : ∀ a, (![2816, 0] : Fin 2 → Nat) a + S128x32.size a ≤ S4096x32.size a
  inb_S33x4096_S33x128_0_2944 : ∀ a, (![0, 2944] : Fin 2 → Nat) a + S33x128.size a ≤ S33x4096.size a
  inb_S4096x32_S128x32_2944_0 : ∀ a, (![2944, 0] : Fin 2 → Nat) a + S128x32.size a ≤ S4096x32.size a
  inb_S33x4096_S33x128_0_3072 : ∀ a, (![0, 3072] : Fin 2 → Nat) a + S33x128.size a ≤ S33x4096.size a
  inb_S4096x32_S128x32_3072_0 : ∀ a, (![3072, 0] : Fin 2 → Nat) a + S128x32.size a ≤ S4096x32.size a
  inb_S33x4096_S33x128_0_3200 : ∀ a, (![0, 3200] : Fin 2 → Nat) a + S33x128.size a ≤ S33x4096.size a
  inb_S4096x32_S128x32_3200_0 : ∀ a, (![3200, 0] : Fin 2 → Nat) a + S128x32.size a ≤ S4096x32.size a
  inb_S33x4096_S33x128_0_3328 : ∀ a, (![0, 3328] : Fin 2 → Nat) a + S33x128.size a ≤ S33x4096.size a
  inb_S4096x32_S128x32_3328_0 : ∀ a, (![3328, 0] : Fin 2 → Nat) a + S128x32.size a ≤ S4096x32.size a
  inb_S33x4096_S33x128_0_3456 : ∀ a, (![0, 3456] : Fin 2 → Nat) a + S33x128.size a ≤ S33x4096.size a
  inb_S4096x32_S128x32_3456_0 : ∀ a, (![3456, 0] : Fin 2 → Nat) a + S128x32.size a ≤ S4096x32.size a
  inb_S33x4096_S33x128_0_3584 : ∀ a, (![0, 3584] : Fin 2 → Nat) a + S33x128.size a ≤ S33x4096.size a
  inb_S4096x32_S128x32_3584_0 : ∀ a, (![3584, 0] : Fin 2 → Nat) a + S128x32.size a ≤ S4096x32.size a
  inb_S33x4096_S33x128_0_3712 : ∀ a, (![0, 3712] : Fin 2 → Nat) a + S33x128.size a ≤ S33x4096.size a
  inb_S4096x32_S128x32_3712_0 : ∀ a, (![3712, 0] : Fin 2 → Nat) a + S128x32.size a ≤ S4096x32.size a
  inb_S33x4096_S33x128_0_3840 : ∀ a, (![0, 3840] : Fin 2 → Nat) a + S33x128.size a ≤ S33x4096.size a
  inb_S4096x32_S128x32_3840_0 : ∀ a, (![3840, 0] : Fin 2 → Nat) a + S128x32.size a ≤ S4096x32.size a
  inb_S33x4096_S33x128_0_3968 : ∀ a, (![0, 3968] : Fin 2 → Nat) a + S33x128.size a ≤ S33x4096.size a
  inb_S4096x32_S128x32_3968_0 : ∀ a, (![3968, 0] : Fin 2 → Nat) a + S128x32.size a ≤ S4096x32.size a
  slices_S2048x32_o0_0_S1024x32 : S2048x32.Slices ![0, 0] S1024x32
  slices_S2048x32_o1024_0_S1024x32 : S2048x32.Slices ![1024, 0] S1024x32
  concatenates_S1024x32_S1024x32_S1024x1_S1024x65_d1 : Shape.Concatenates [S1024x32, S1024x32, S1024x1] S1024x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x128_0_0 : ∀ a, (![0, 0] : Fin 2 → Nat) a + S65x128.size a ≤ S65x4096.size a
  h_S65x128 : 0 < S65x128.numel
  shapeCasts_S65x128_S65x128 : S65x128.ShapeCasts S65x128
  inb_S4096x128_S128x128_0_0 : ∀ a, (![0, 0] : Fin 2 → Nat) a + S128x128.size a ≤ S4096x128.size a
  h_S128x128 : 0 < S128x128.numel
  shapeCasts_S128x128_S128x128 : S128x128.ShapeCasts S128x128
  broadcasts_S1x128_S1024x128 : S1x128.Broadcasts S1024x128
  inb_S65x4096_S65x128_0_128 : ∀ a, (![0, 128] : Fin 2 → Nat) a + S65x128.size a ≤ S65x4096.size a
  inb_S4096x128_S128x128_128_0 : ∀ a, (![128, 0] : Fin 2 → Nat) a + S128x128.size a ≤ S4096x128.size a
  inb_S65x4096_S65x128_0_256 : ∀ a, (![0, 256] : Fin 2 → Nat) a + S65x128.size a ≤ S65x4096.size a
  inb_S4096x128_S128x128_256_0 : ∀ a, (![256, 0] : Fin 2 → Nat) a + S128x128.size a ≤ S4096x128.size a
  inb_S65x4096_S65x128_0_384 : ∀ a, (![0, 384] : Fin 2 → Nat) a + S65x128.size a ≤ S65x4096.size a
  inb_S4096x128_S128x128_384_0 : ∀ a, (![384, 0] : Fin 2 → Nat) a + S128x128.size a ≤ S4096x128.size a
  inb_S65x4096_S65x128_0_512 : ∀ a, (![0, 512] : Fin 2 → Nat) a + S65x128.size a ≤ S65x4096.size a
  inb_S4096x128_S128x128_512_0 : ∀ a, (![512, 0] : Fin 2 → Nat) a + S128x128.size a ≤ S4096x128.size a
  inb_S65x4096_S65x128_0_640 : ∀ a, (![0, 640] : Fin 2 → Nat) a + S65x128.size a ≤ S65x4096.size a
  inb_S4096x128_S128x128_640_0 : ∀ a, (![640, 0] : Fin 2 → Nat) a + S128x128.size a ≤ S4096x128.size a
  inb_S65x4096_S65x128_0_768 : ∀ a, (![0, 768] : Fin 2 → Nat) a + S65x128.size a ≤ S65x4096.size a
  inb_S4096x128_S128x128_768_0 : ∀ a, (![768, 0] : Fin 2 → Nat) a + S128x128.size a ≤ S4096x128.size a
  inb_S65x4096_S65x128_0_896 : ∀ a, (![0, 896] : Fin 2 → Nat) a + S65x128.size a ≤ S65x4096.size a
  inb_S4096x128_S128x128_896_0 : ∀ a, (![896, 0] : Fin 2 → Nat) a + S128x128.size a ≤ S4096x128.size a
  inb_S65x4096_S65x128_0_1024 : ∀ a, (![0, 1024] : Fin 2 → Nat) a + S65x128.size a ≤ S65x4096.size a
  inb_S4096x128_S128x128_1024_0 : ∀ a, (![1024, 0] : Fin 2 → Nat) a + S128x128.size a ≤ S4096x128.size a
  inb_S65x4096_S65x128_0_1152 : ∀ a, (![0, 1152] : Fin 2 → Nat) a + S65x128.size a ≤ S65x4096.size a
  inb_S4096x128_S128x128_1152_0 : ∀ a, (![1152, 0] : Fin 2 → Nat) a + S128x128.size a ≤ S4096x128.size a
  inb_S65x4096_S65x128_0_1280 : ∀ a, (![0, 1280] : Fin 2 → Nat) a + S65x128.size a ≤ S65x4096.size a
  inb_S4096x128_S128x128_1280_0 : ∀ a, (![1280, 0] : Fin 2 → Nat) a + S128x128.size a ≤ S4096x128.size a
  inb_S65x4096_S65x128_0_1408 : ∀ a, (![0, 1408] : Fin 2 → Nat) a + S65x128.size a ≤ S65x4096.size a
  inb_S4096x128_S128x128_1408_0 : ∀ a, (![1408, 0] : Fin 2 → Nat) a + S128x128.size a ≤ S4096x128.size a
  inb_S65x4096_S65x128_0_1536 : ∀ a, (![0, 1536] : Fin 2 → Nat) a + S65x128.size a ≤ S65x4096.size a
  inb_S4096x128_S128x128_1536_0 : ∀ a, (![1536, 0] : Fin 2 → Nat) a + S128x128.size a ≤ S4096x128.size a
  inb_S65x4096_S65x128_0_1664 : ∀ a, (![0, 1664] : Fin 2 → Nat) a + S65x128.size a ≤ S65x4096.size a
  inb_S4096x128_S128x128_1664_0 : ∀ a, (![1664, 0] : Fin 2 → Nat) a + S128x128.size a ≤ S4096x128.size a
  inb_S65x4096_S65x128_0_1792 : ∀ a, (![0, 1792] : Fin 2 → Nat) a + S65x128.size a ≤ S65x4096.size a
  inb_S4096x128_S128x128_1792_0 : ∀ a, (![1792, 0] : Fin 2 → Nat) a + S128x128.size a ≤ S4096x128.size a
  inb_S65x4096_S65x128_0_1920 : ∀ a, (![0, 1920] : Fin 2 → Nat) a + S65x128.size a ≤ S65x4096.size a
  inb_S4096x128_S128x128_1920_0 : ∀ a, (![1920, 0] : Fin 2 → Nat) a + S128x128.size a ≤ S4096x128.size a
  inb_S65x4096_S65x128_0_2048 : ∀ a, (![0, 2048] : Fin 2 → Nat) a + S65x128.size a ≤ S65x4096.size a
  inb_S4096x128_S128x128_2048_0 : ∀ a, (![2048, 0] : Fin 2 → Nat) a + S128x128.size a ≤ S4096x128.size a
  inb_S65x4096_S65x128_0_2176 : ∀ a, (![0, 2176] : Fin 2 → Nat) a + S65x128.size a ≤ S65x4096.size a
  inb_S4096x128_S128x128_2176_0 : ∀ a, (![2176, 0] : Fin 2 → Nat) a + S128x128.size a ≤ S4096x128.size a
  inb_S65x4096_S65x128_0_2304 : ∀ a, (![0, 2304] : Fin 2 → Nat) a + S65x128.size a ≤ S65x4096.size a
  inb_S4096x128_S128x128_2304_0 : ∀ a, (![2304, 0] : Fin 2 → Nat) a + S128x128.size a ≤ S4096x128.size a
  inb_S65x4096_S65x128_0_2432 : ∀ a, (![0, 2432] : Fin 2 → Nat) a + S65x128.size a ≤ S65x4096.size a
  inb_S4096x128_S128x128_2432_0 : ∀ a, (![2432, 0] : Fin 2 → Nat) a + S128x128.size a ≤ S4096x128.size a
  inb_S65x4096_S65x128_0_2560 : ∀ a, (![0, 2560] : Fin 2 → Nat) a + S65x128.size a ≤ S65x4096.size a
  inb_S4096x128_S128x128_2560_0 : ∀ a, (![2560, 0] : Fin 2 → Nat) a + S128x128.size a ≤ S4096x128.size a
  inb_S65x4096_S65x128_0_2688 : ∀ a, (![0, 2688] : Fin 2 → Nat) a + S65x128.size a ≤ S65x4096.size a
  inb_S4096x128_S128x128_2688_0 : ∀ a, (![2688, 0] : Fin 2 → Nat) a + S128x128.size a ≤ S4096x128.size a
  inb_S65x4096_S65x128_0_2816 : ∀ a, (![0, 2816] : Fin 2 → Nat) a + S65x128.size a ≤ S65x4096.size a
  inb_S4096x128_S128x128_2816_0 : ∀ a, (![2816, 0] : Fin 2 → Nat) a + S128x128.size a ≤ S4096x128.size a
  inb_S65x4096_S65x128_0_2944 : ∀ a, (![0, 2944] : Fin 2 → Nat) a + S65x128.size a ≤ S65x4096.size a
  inb_S4096x128_S128x128_2944_0 : ∀ a, (![2944, 0] : Fin 2 → Nat) a + S128x128.size a ≤ S4096x128.size a
  inb_S65x4096_S65x128_0_3072 : ∀ a, (![0, 3072] : Fin 2 → Nat) a + S65x128.size a ≤ S65x4096.size a
  inb_S4096x128_S128x128_3072_0 : ∀ a, (![3072, 0] : Fin 2 → Nat) a + S128x128.size a ≤ S4096x128.size a
  inb_S65x4096_S65x128_0_3200 : ∀ a, (![0, 3200] : Fin 2 → Nat) a + S65x128.size a ≤ S65x4096.size a
  inb_S4096x128_S128x128_3200_0 : ∀ a, (![3200, 0] : Fin 2 → Nat) a + S128x128.size a ≤ S4096x128.size a
  inb_S65x4096_S65x128_0_3328 : ∀ a, (![0, 3328] : Fin 2 → Nat) a + S65x128.size a ≤ S65x4096.size a
  inb_S4096x128_S128x128_3328_0 : ∀ a, (![3328, 0] : Fin 2 → Nat) a + S128x128.size a ≤ S4096x128.size a
  inb_S65x4096_S65x128_0_3456 : ∀ a, (![0, 3456] : Fin 2 → Nat) a + S65x128.size a ≤ S65x4096.size a
  inb_S4096x128_S128x128_3456_0 : ∀ a, (![3456, 0] : Fin 2 → Nat) a + S128x128.size a ≤ S4096x128.size a
  inb_S65x4096_S65x128_0_3584 : ∀ a, (![0, 3584] : Fin 2 → Nat) a + S65x128.size a ≤ S65x4096.size a
  inb_S4096x128_S128x128_3584_0 : ∀ a, (![3584, 0] : Fin 2 → Nat) a + S128x128.size a ≤ S4096x128.size a
  inb_S65x4096_S65x128_0_3712 : ∀ a, (![0, 3712] : Fin 2 → Nat) a + S65x128.size a ≤ S65x4096.size a
  inb_S4096x128_S128x128_3712_0 : ∀ a, (![3712, 0] : Fin 2 → Nat) a + S128x128.size a ≤ S4096x128.size a
  inb_S65x4096_S65x128_0_3840 : ∀ a, (![0, 3840] : Fin 2 → Nat) a + S65x128.size a ≤ S65x4096.size a
  inb_S4096x128_S128x128_3840_0 : ∀ a, (![3840, 0] : Fin 2 → Nat) a + S128x128.size a ≤ S4096x128.size a
  inb_S65x4096_S65x128_0_3968 : ∀ a, (![0, 3968] : Fin 2 → Nat) a + S65x128.size a ≤ S65x4096.size a
  inb_S4096x128_S128x128_3968_0 : ∀ a, (![3968, 0] : Fin 2 → Nat) a + S128x128.size a ≤ S4096x128.size a
  inb_S2048x128_S1024x128_0_0 : ∀ a, (![0, 0] : Fin 2 → Nat) a + S1024x128.size a ≤ S2048x128.size a
  h_S1024x128 : 0 < S1024x128.numel
  inb_S4096x33_S2048x33_2048_0 : ∀ a, (![2048, 0] : Fin 2 → Nat) a + S2048x33.size a ≤ S4096x33.size a
  inb_S2048x128_S1024x128_1024_0 : ∀ a, (![1024, 0] : Fin 2 → Nat) a + S1024x128.size a ≤ S2048x128.size a
  dot_S2048x33_S33x128_S2048x128_1_0_0_1_n_n_wf : DotDims.WF S2048x33 S33x128 S2048x128 [1] [0] [0] [1] [] []
  dot_S2048x128_S128x32_S2048x32_1_0_0_1_n_n_wf : DotDims.WF S2048x128 S128x32 S2048x32 [1] [0] [0] [1] [] []
  dot_S1024x65_S65x128_S1024x128_1_0_0_1_n_n_wf : DotDims.WF S1024x65 S65x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x33.size a ≤ S32768x33.size a
  hwx0_0 : ∀ i : grid0.Coords, EltTy.bits .bf16 = 32 ∨ (Rect.block (s := S32768x33) S4096x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S2048x33_S33x128_S2048x128_1_0_0_1_n_n : DotDims S2048x33 S33x128 S2048x128 where
  lhsContracting := [1]
  rhsContracting := [0]
  lhsNonContracting := [0]
  rhsNonContracting := [1]
  lhsBatch := []
  rhsBatch := []
  wf := dot_S2048x33_S33x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1024x65_S65x128_S1024x128_1_0_0_1_n_n : DotDims S1024x65 S65x128 S1024x128 where
  lhsContracting := [1]
  rhsContracting := [0]
  lhsNonContracting := [0]
  rhsNonContracting := [1]
  lhsBatch := []
  rhsBatch := []
  wf := dot_S1024x65_S65x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v8) S4096x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Stream.lean ====
/-
  One row-stream of the kernel body, as a function.

  The body handles two independent streams of 2048 stacked rows (1024 rows of `state` over the matching 1024 rows of
  `next_state`, each with a trailing 1). For a stream `x` it forms, chunk by chunk over the 4096 hidden units in 32
  chunks of 128,
      acc12 (n+1) = acc12 n + max (x · W1aug[:, chunk n], 0) · W2[chunk n, :],        acc12 0 = b2,
  takes `o = max (acc12 32, 0)`, lays rows `p` and `1024 + p` of `o` side by side with a final 1 (`paired`), and then
      acc34 (n+1) = acc34 n + max (u · W3aug[:, chunk n], 0) · W4[chunk n, :],        acc34 0 = b4.
  `stream` is `acc34 32`. What the body leaves in the output block is exactly two such streams, one per half of the
  block's rows (`out0_7_eq`: both sides are the same tree of operations once the body's named intermediate values are
  unfolded). Read at an index, with the chunks regrouped into one sum over 4096 (`Cert.Siamese.sum_chunks`), a stream is
      b4 q + ∑ k < 4096, max (∑ j < 65, u p j · W3aug j k, 0) · W4 k q.
-/
import proofs.«138751_g11802570129985_cont_fleet_79_19_alg».proof.Proof.Gen.KernelIdeal.Frame
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Siamese

open Cert.KernelIdeal Cert.KernelIdeal.Gen Idealize.ShloMosaic Idealize.ShloMosaic.TcCoe

variable {F : FTy → Type} [FloatOps F]

/-- Columns `128 n … 128 n + 127` of the augmented first weight matrix `[W1; b1]`. -/
@[reducible] def slabW1 (n : ℕ) (h : n < 32) : Rect S33x4096 :=
  Rect.unit (s := S33x4096) ![0, 128 * n] S33x128.size
    (Rect.inb₂ (by show 0 + 33 ≤ 33; omega) (by show 128 * n + 128 ≤ 4096; omega))

/-- Rows `128 n … 128 n + 127` of `W2`. -/
@[reducible] def slabW2 (n : ℕ) (h : n < 32) : Rect S4096x32 :=
  Rect.unit (s := S4096x32) ![128 * n, 0] S128x32.size
    (Rect.inb₂ (by show 128 * n + 128 ≤ 4096; omega) (by show 0 + 32 ≤ 32; omega))

/-- Columns `128 n … 128 n + 127` of the augmented third weight matrix `[W3; b3]`. -/
@[reducible] def slabW3 (n : ℕ) (h : n < 32) : Rect S65x4096 :=
  Rect.unit (s := S65x4096) ![0, 128 * n] S65x128.size
    (Rect.inb₂ (by show 0 + 65 ≤ 65; omega) (by show 128 * n + 128 ≤ 4096; omega))

/-- Rows `128 n … 128 n + 127` of `W4`. -/
@[reducible] def slabW4 (n : ℕ) (h : n < 32) : Rect S4096x128 :=
  Rect.unit (s := S4096x128) ![128 * n, 0] S128x128.size
    (Rect.inb₂ (by show 128 * n + 128 ≤ 4096; omega) (by show 0 + 128 ≤ 128; omega))

/-- One chunk of hidden units of the first layer: `max (x · w, 0)` for a slab `w` of 128 columns. -/
def hidden1 (x : FVec F S2048x33 .bf16) (w : Vec F S33x128 .bf16) : FVec F S2048x128 .bf16 :=
  maximumf (truncf .bf16 (matmul dot_S2048x33_S33x128_S2048x128_1_0_0_1_n_n none x
      (shapeCast S33x128 w shapeCasts_S33x128_S33x128) (constant S2048x128 .f32 0x00000000#32)) bitsLt_bf16_f32)
    (broadcast S2048x128 (Scalar.ofBits .bf16 0x0000#16))

/-- That chunk's contribution to the second layer's pre-activation. -/
def chunk12 (x : FVec F S2048x33 .bf16) (w1 : Vec F S33x128 .bf16) (w2 : Vec F S128x32 .bf16) : FVec F S2048x32 .f32 :=
  matmul dot_S2048x128_S128x32_S2048x32_1_0_0_1_n_n none (hidden1 x w1)
    (shapeCast S128x32 w2 shapeCasts_S128x32_S128x32) (constant S2048x32 .f32 0x00000000#32)

/-- The second layer's pre-activation after the first `n` chunks, starting from `b`. -/
def acc12 (x : FVec F S2048x33 .bf16) (x1 : Vec F S33x4096 .bf16) (x2 : Vec F S4096x32 .bf16) (b : FVec F S2048x32 .f32) :
    (n : ℕ) → n ≤ 32 → FVec F S2048x32 .f32
  | 0, _ => b
  | n + 1, h => addf (acc12 x x1 x2 b n (by omega))
      (chunk12 x (View.ld x1 (slabW1 n (by omega))) (View.ld x2 (slabW2 n (by omega))))

/-- The two branches' second-layer outputs (rows `p` and `1024 + p`) side by side, with a final column of ones. -/
def paired (o : FVec F S2048x32 .f32) : FVec F S1024x65 .bf16 :=
  truncf .bf16 (concatenate S1024x65 1
    [⟨S1024x32, extractStridedSlice S1024x32 ![0, 0] o slices_S2048x32_o0_0_S1024x32⟩,
     ⟨S1024x32, extractStridedSlice S1024x32 ![1024, 0] o slices_S2048x32_o1024_0_S1024x32⟩,
     ⟨S1024x1, broadcast S1024x1 (Scalar.ofBits .f32 0x3F800000#32)⟩]
    concatenates_S1024x32_S1024x32_S1024x1_S1024x65_d1) bitsLt_bf16_f32

/-- One chunk of hidden units of the third layer. -/
def hidden3 (u : FVec F S1024x65 .bf16) (w : Vec F S65x128 .bf16) : FVec F S1024x128 .bf16 :=
  maximumf (truncf .bf16 (matmul dot_S1024x65_S65x128_S1024x128_1_0_0_1_n_n none u
      (shapeCast S65x128 w shapeCasts_S65x128_S65x128) (constant S1024x128 .f32 0x00000000#32)) bitsLt_bf16_f32)
    (broadcast S1024x128 (Scalar.ofBits .bf16 0x0000#16))

/-- That chunk's contribution to the output. -/
def chunk34 (u : FVec F S1024x65 .bf16) (w3 : Vec F S65x128 .bf16) (w4 : Vec F S128x128 .bf16) : FVec F S1024x128 .f32 :=
  matmul dot_S1024x128_S128x128_S1024x128_1_0_0_1_n_n none (hidden3 u w3)
    (shapeCast S128x128 w4 shapeCasts_S128x128_S128x128) (constant S1024x128 .f32 0x00000000#32)

/-- The output after the first `n` chunks, starting from `b`. -/
def acc34 (u : FVec F S1024x65 .bf16) (x4 : Vec F S65x4096 .bf16) (x5 : Vec F S4096x128 .bf16) (b : FVec F S1024x128 .f32) :
    (n : ℕ) → n ≤ 32 → FVec F S1024x128 .f32
  | 0, _ => b
  | n + 1, h => addf (acc34 u x4 x5 b n (by omega))
      (chunk34 u (View.ld x4 (slabW3 n (by omega))) (View.ld x5 (slabW4 n (by omega))))

/-- What one row-stream stores: the four layers applied to its 2048 stacked rows `x`. -/
def stream (x : FVec F S2048x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) : FVec F S1024x128 .f32 :=
  acc34 (paired (maximumf
      (acc12 x x1 x2 (broadcastTo S2048x32 (shapeCast S1x32 (View.ld x3 r0_1) shapeCasts_S1x32_S1x32) broadcasts_S1x32_S2048x32) 32 le_rfl)
      (broadcast S2048x32 (Scalar.ofBits .f32 0x00000000#32))))
    x4 x5 (broadcastTo S1024x128 (shapeCast S1x128 (View.ld x6 r0_66) shapeCasts_S1x128_S1x128) broadcasts_S1x128_S1024x128) 32 le_rfl

set_option maxRecDepth 100000 in
set_option maxHeartbeats 4000000 in
/-- What the body leaves in the output block: the second stream (rows 2048… of the input block) in rows 1024… and the
    first stream in rows 0…1023. -/
theorem out0_7_eq (x0 : Vec F S4096x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) :
    out0_7 x0 x1 x2 x3 x4 x5 x6 = View.canon
      [⟨r0_133, stream (shapeCast S2048x33 (View.ld x0 r0_132) shapeCasts_S2048x33_S2048x33) x1 x2 x3 x4 x5 x6⟩,
       ⟨r0_131, stream (shapeCast S2048x33 (View.ld x0 r0_0) shapeCasts_S2048x33_S2048x33) x1 x2 x3 x4 x5 x6⟩] := rfl

/-! ## A matrix product into a zero accumulator, read at an index -/

open Idealize.ShloMosaic.ValueIdx

/-- For dimension numbers that contract the left operand's axis 1 with the right operand's axis 0 and keep the other
    two axes in order (the four facts `l0 … r1`), the product's entry `(p, n)` is `∑ k, a p k · b k n`. -/
theorem matmul_read {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (a : FVec Ideal ⟨2, ![M, K]⟩ φ₁) (b : FVec Ideal ⟨2, ![K, N]⟩ φ₂) (p : Fin M) (n : Fin N) :
    matmul d none a b (constant ⟨2, ![M, N]⟩ .f32 0x00000000#32) (ix2 p n) = ∑ k : Fin K, a (ix2 p k) * b (ix2 k n) := by
  refine (Ideal.matmul_constant_zero_apply d none a b (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k := funext fun a => Fin.ext (by
    match a with
    | ⟨0, _⟩ => exact l0 _ _
    | ⟨1, _⟩ => exact (l1 _ _).trans hk)
  have er : d.rhsIdx (ix2 p n) ((contrEquiv1 d K hr hs).symm k) = ix2 k n := funext fun a => Fin.ext (by
    match a with
    | ⟨0, _⟩ => exact (r0 _ _).trans hk
    | ⟨1, _⟩ => exact r1 _ _)
  rw [el, er]

theorem d1_l0 (i : S2048x128.Idx) (q : dot_S2048x33_S33x128_S2048x128_1_0_0_1_n_n.contr.Idx) : (dot_S2048x33_S33x128_S2048x128_1_0_0_1_n_n.lhsIdx i q 0).val = (i 0).val := by
  unfold DotDims.lhsIdx
  rw [dif_neg (show ¬(0 : Fin S2048x33.rank) ∈ dot_S2048x33_S33x128_S2048x128_1_0_0_1_n_n.lhsBatch by decide), dif_pos (show (0 : Fin S2048x33.rank) ∈ dot_S2048x33_S33x128_S2048x128_1_0_0_1_n_n.lhsNonContracting by decide)]
  rfl
theorem d1_l1 (i : S2048x128.Idx) (q : dot_S2048x33_S33x128_S2048x128_1_0_0_1_n_n.contr.Idx) : (dot_S2048x33_S33x128_S2048x128_1_0_0_1_n_n.lhsIdx i q 1).val = (q ⟨0, by decide⟩).val :=
  dot_S2048x33_S33x128_S2048x128_1_0_0_1_n_n.lhsIdx_val_of_single rfl i q
theorem d1_r0 (i : S2048x128.Idx) (q : dot_S2048x33_S33x128_S2048x128_1_0_0_1_n_n.contr.Idx) : (dot_S2048x33_S33x128_S2048x128_1_0_0_1_n_n.rhsIdx i q 0).val = (q ⟨0, by decide⟩).val :=
  dot_S2048x33_S33x128_S2048x128_1_0_0_1_n_n.rhsIdx_val_of_single rfl i q
theorem d1_r1 (i : S2048x128.Idx) (q : dot_S2048x33_S33x128_S2048x128_1_0_0_1_n_n.contr.Idx) : (dot_S2048x33_S33x128_S2048x128_1_0_0_1_n_n.rhsIdx i q 1).val = (i 1).val := by
  unfold DotDims.rhsIdx
  rw [dif_neg (show ¬(1 : Fin S33x128.rank) ∈ dot_S2048x33_S33x128_S2048x128_1_0_0_1_n_n.rhsBatch by decide), dif_pos (show (1 : Fin S33x128.rank) ∈ dot_S2048x33_S33x128_S2048x128_1_0_0_1_n_n.rhsNonContracting by decide)]
  rfl

theorem d2_l0 (i : S2048x32.Idx) (q : dot_S2048x128_S128x32_S2048x32_1_0_0_1_n_n.contr.Idx) : (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem d2_l1 (i : S2048x32.Idx) (q : dot_S2048x128_S128x32_S2048x32_1_0_0_1_n_n.contr.Idx) : (dot_S2048x128_S128x32_S2048x32_1_0_0_1_n_n.lhsIdx i q 1).val = (q ⟨0, by decide⟩).val :=
  dot_S2048x128_S128x32_S2048x32_1_0_0_1_n_n.lhsIdx_val_of_single rfl i q
theorem d2_r0 (i : S2048x32.Idx) (q : dot_S2048x128_S128x32_S2048x32_1_0_0_1_n_n.contr.Idx) : (dot_S2048x128_S128x32_S2048x32_1_0_0_1_n_n.rhsIdx i q 0).val = (q ⟨0, by decide⟩).val :=
  dot_S2048x128_S128x32_S2048x32_1_0_0_1_n_n.rhsIdx_val_of_single rfl i q
theorem d2_r1 (i : S2048x32.Idx) (q : dot_S2048x128_S128x32_S2048x32_1_0_0_1_n_n.contr.Idx) : (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

theorem d3_l0 (i : S1024x128.Idx) (q : dot_S1024x65_S65x128_S1024x128_1_0_0_1_n_n.contr.Idx) : (dot_S1024x65_S65x128_S1024x128_1_0_0_1_n_n.lhsIdx i q 0).val = (i 0).val := by
  unfold DotDims.lhsIdx
  rw [dif_neg (show ¬(0 : Fin S1024x65.rank) ∈ dot_S1024x65_S65x128_S1024x128_1_0_0_1_n_n.lhsBatch by decide), dif_pos (show (0 : Fin S1024x65.rank) ∈ dot_S1024x65_S65x128_S1024x128_1_0_0_1_n_n.lhsNonContracting by decide)]
  rfl
theorem d3_l1 (i : S1024x128.Idx) (q : dot_S1024x65_S65x128_S1024x128_1_0_0_1_n_n.contr.Idx) : (dot_S1024x65_S65x128_S1024x128_1_0_0_1_n_n.lhsIdx i q 1).val = (q ⟨0, by decide⟩).val :=
  dot_S1024x65_S65x128_S1024x128_1_0_0_1_n_n.lhsIdx_val_of_single rfl i q
theorem d3_r0 (i : S1024x128.Idx) (q : dot_S1024x65_S65x128_S1024x128_1_0_0_1_n_n.contr.Idx) : (dot_S1024x65_S65x128_S1024x128_1_0_0_1_n_n.rhsIdx i q 0).val = (q ⟨0, by decide⟩).val :=
  dot_S1024x65_S65x128_S1024x128_1_0_0_1_n_n.rhsIdx_val_of_single rfl i q
theorem d3_r1 (i : S1024x128.Idx) (q : dot_S1024x65_S65x128_S1024x128_1_0_0_1_n_n.contr.Idx) : (dot_S1024x65_S65x128_S1024x128_1_0_0_1_n_n.rhsIdx i q 1).val = (i 1).val := by
  unfold DotDims.rhsIdx
  rw [dif_neg (show ¬(1 : Fin S65x128.rank) ∈ dot_S1024x65_S65x128_S1024x128_1_0_0_1_n_n.rhsBatch by decide), dif_pos (show (1 : Fin S65x128.rank) ∈ dot_S1024x65_S65x128_S1024x128_1_0_0_1_n_n.rhsNonContracting by decide)]
  rfl

theorem d4_l0 (i : S1024x128.Idx) (q : dot_S1024x128_S128x128_S1024x128_1_0_0_1_n_n.contr.Idx) : (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem d4_l1 (i : S1024x128.Idx) (q : dot_S1024x128_S128x128_S1024x128_1_0_0_1_n_n.contr.Idx) : (dot_S1024x128_S128x128_S1024x128_1_0_0_1_n_n.lhsIdx i q 1).val = (q ⟨0, by decide⟩).val :=
  dot_S1024x128_S128x128_S1024x128_1_0_0_1_n_n.lhsIdx_val_of_single rfl i q
theorem d4_r0 (i : S1024x128.Idx) (q : dot_S1024x128_S128x128_S1024x128_1_0_0_1_n_n.contr.Idx) : (dot_S1024x128_S128x128_S1024x128_1_0_0_1_n_n.rhsIdx i q 0).val = (q ⟨0, by decide⟩).val :=
  dot_S1024x128_S128x128_S1024x128_1_0_0_1_n_n.rhsIdx_val_of_single rfl i q
theorem d4_r1 (i : S1024x128.Idx) (q : dot_S1024x128_S128x128_S1024x128_1_0_0_1_n_n.contr.Idx) : (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem mm1 (a : FVec Ideal S2048x33 .bf16) (b : FVec Ideal S33x128 .bf16) (p : Fin 2048) (n : Fin 128) :
    matmul dot_S2048x33_S33x128_S2048x128_1_0_0_1_n_n none a b (constant S2048x128 .f32 0x00000000#32) (ix2 p n) = ∑ k : Fin 33, a (ix2 p k) * b (ix2 k n) :=
  matmul_read dot_S2048x33_S33x128_S2048x128_1_0_0_1_n_n rfl rfl d1_l0 d1_l1 d1_r0 d1_r1 a b p n
theorem mm2 (a : FVec Ideal S2048x128 .bf16) (b : FVec Ideal S128x32 .bf16) (p : Fin 2048) (n : Fin 32) :
    matmul dot_S2048x128_S128x32_S2048x32_1_0_0_1_n_n none a b (constant S2048x32 .f32 0x00000000#32) (ix2 p n) = ∑ k : Fin 128, a (ix2 p k) * b (ix2 k n) :=
  matmul_read dot_S2048x128_S128x32_S2048x32_1_0_0_1_n_n rfl rfl d2_l0 d2_l1 d2_r0 d2_r1 a b p n
theorem mm3 (a : FVec Ideal S1024x65 .bf16) (b : FVec Ideal S65x128 .bf16) (p : Fin 1024) (n : Fin 128) :
    matmul dot_S1024x65_S65x128_S1024x128_1_0_0_1_n_n none a b (constant S1024x128 .f32 0x00000000#32) (ix2 p n) = ∑ k : Fin 65, a (ix2 p k) * b (ix2 k n) :=
  matmul_read dot_S1024x65_S65x128_S1024x128_1_0_0_1_n_n rfl rfl d3_l0 d3_l1 d3_r0 d3_r1 a b p n
theorem mm4 (a : FVec Ideal S1024x128 .bf16) (b : FVec Ideal S128x128 .bf16) (p : Fin 1024) (n : Fin 128) :
    matmul dot_S1024x128_S128x128_S1024x128_1_0_0_1_n_n none a b (constant S1024x128 .f32 0x00000000#32) (ix2 p n) = ∑ k : Fin 128, a (ix2 p k) * b (ix2 k n) :=
  matmul_read dot_S1024x128_S128x128_S1024x128_1_0_0_1_n_n rfl rfl d4_l0 d4_l1 d4_r0 d4_r1 a b p n

/-! ## The weight slabs, read at an index -/

theorem slabW1_read (x1 : Vec Ideal S33x4096 .bf16) (n : ℕ) (h : n < 32) (i : Fin 33) (kk : Fin 128) :
    (View.ld x1 (slabW1 n h) : FVec Ideal S33x128 .bf16) (ix2 i kk) = x1 (ix2 i ⟨128 * n + kk.val, by omega⟩) := by
  show x1 ((slabW1 n h).emb (ix2 i kk)) = _
  refine congrArg x1 (funext fun a => Fin.ext ?_)
  match a with
  | ⟨0, _⟩ => show 0 + 1 * i.val = i.val; omega
  | ⟨1, _⟩ => show 128 * n + 1 * kk.val = 128 * n + kk.val; omega

theorem slabW2_read (x2 : Vec Ideal S4096x32 .bf16) (n : ℕ) (h : n < 32) (kk : Fin 128) (j : Fin 32) :
    (View.ld x2 (slabW2 n h) : FVec Ideal S128x32 .bf16) (ix2 kk j) = x2 (ix2 ⟨128 * n + kk.val, by omega⟩ j) := by
  show x2 ((slabW2 n h).emb (ix2 kk j)) = _
  refine congrArg x2 (funext fun a => Fin.ext ?_)
  match a with
  | ⟨0, _⟩ => show 128 * n + 1 * kk.val = 128 * n + kk.val; omega
  | ⟨1, _⟩ => show 0 + 1 * j.val = j.val; omega

theorem slabW3_read (x4 : Vec Ideal S65x4096 .bf16) (n : ℕ) (h : n < 32) (i : Fin 65) (kk : Fin 128) :
    (View.ld x4 (slabW3 n h) : FVec Ideal S65x128 .bf16) (ix2 i kk) = x4 (ix2 i ⟨128 * n + kk.val, by omega⟩) := by
  show x4 ((slabW3 n h).emb (ix2 i kk)) = _
  refine congrArg x4 (funext fun a => Fin.ext ?_)
  match a with
  | ⟨0, _⟩ => show 0 + 1 * i.val = i.val; omega
  | ⟨1, _⟩ => show 128 * n + 1 * kk.val = 128 * n + kk.val; omega

theorem slabW4_read (x5 : Vec Ideal S4096x128 .bf16) (n : ℕ) (h : n < 32) (kk : Fin 128) (j : Fin 128) :
    (View.ld x5 (slabW4 n h) : FVec Ideal S128x128 .bf16) (ix2 kk j) = x5 (ix2 ⟨128 * n + kk.val, by omega⟩ j) := by
  show x5 ((slabW4 n h).emb (ix2 kk j)) = _
  refine congrArg x5 (funext fun a => Fin.ext ?_)
  match a with
  | ⟨0, _⟩ => show 128 * n + 1 * kk.val = 128 * n + kk.val; omega
  | ⟨1, _⟩ => show 0 + 1 * j.val = j.val; omega

end Cert.KernelIdeal.Siamese

end
-- ==== Proof.Spec.lean ====
/-
  The four-layer network as one function of its arguments, element by element, over the extended reals.

  For an input row `X` (32 numbers), `net X` is the shared two-layer branch
      net X n = max (∑ k < 4096, max (∑ i < 32, X i · W1 i k + b1 k, 0) · W2 k n + b2 n, 0);
  `side a b` lays the two branches' outputs side by side (64 numbers); `head Z q` is the action predictor
      head Z q = ∑ k < 4096, max (∑ j < 64, Z j · W3 j k + b3 k, 0) · W4 k q + b4 q.
  `G` is `head (side (net state_r) (net next_r))` at row `r`, column `q`.

  Two laws join the tiled computation to this one, and neither needs finiteness (only that the extended reals are a
  commutative monoid under `+` and that `1 · b = b`):
  * a sum over 4096 is the sum over 32 chunks of the sums over the chunk's 128 terms (`sum_chunks`);
  * a contraction over `n + 1` terms whose last factor on the left is `1` is the contraction over `n` plus the last
    right factor — a bias folded into the matrix product by a column of ones (`sum_aug`).
-/
import Idealize.ShloMosaic.PureOps.Ideal
import Idealize.ShloMosaic.Lib.ValueIdx
import Mathlib.Algebra.BigOperators.Fin
import Mathlib.Data.Fintype.BigOperators
import Mathlib.Logic.Equiv.Fin.Basic

noncomputable section

namespace Cert.Siamese

open Idealize.ShloMosaic Idealize.ShloMosaic.ValueIdx

/-- The shared two-layer branch on one input row. -/
def net (X : Fin 32 → EReal) (W1 : Fin 32 → Fin 4096 → EReal) (b1 : Fin 4096 → EReal)
    (W2 : Fin 4096 → Fin 32 → EReal) (b2 : Fin 32 → EReal) (n : Fin 32) : EReal :=
  max ((∑ k : Fin 4096, max ((∑ i : Fin 32, X i * W1 i k) + b1 k) 0 * W2 k n) + b2 n) 0

/-- Two rows of 32 side by side. -/
def side (a b : Fin 32 → EReal) (j : Fin 64) : EReal :=
  if h : j.val < 32 then a ⟨j.val, h⟩ else b ⟨j.val - 32, by omega⟩

/-- The action predictor on one row of 64. -/
def head (Z : Fin 64 → EReal) (W3 : Fin 64 → Fin 4096 → EReal) (b3 : Fin 4096 → EReal)
    (W4 : Fin 4096 → Fin 128 → EReal) (b4 : Fin 128 → EReal) (q : Fin 128) : EReal :=
  (∑ k : Fin 4096, max ((∑ j : Fin 64, Z j * W3 j k) + b3 k) 0 * W4 k q) + b4 q

/-- The result array as one function of the ten argument arrays. -/
def G (s n : FVec Ideal ⟨2, ![16384, 32]⟩ .f32) (W1 : FVec Ideal ⟨2, ![32, 4096]⟩ .f32) (b1 : FVec Ideal ⟨1, ![4096]⟩ .f32)
    (W2 : FVec Ideal ⟨2, ![4096, 32]⟩ .f32) (b2 : FVec Ideal ⟨1, ![32]⟩ .f32) (W3 : FVec Ideal ⟨2, ![64, 4096]⟩ .f32)
    (b3 : FVec Ideal ⟨1, ![4096]⟩ .f32) (W4 : FVec Ideal ⟨2, ![4096, 128]⟩ .f32) (b4 : FVec Ideal ⟨1, ![128]⟩ .f32) :
    FVec Ideal ⟨2, ![16384, 128]⟩ .f32 := fun i =>
  head
    (side
      (net (fun a => s (ix2 ⟨(i 0).val, idx2_lt0 i⟩ a)) (fun a k => W1 (ix2 a k)) (fun k => b1 (ix1 k)) (fun k a => W2 (ix2 k a)) (fun a => b2 (ix1 a)))
      (net (fun a => n (ix2 ⟨(i 0).val, idx2_lt0 i⟩ a)) (fun a k => W1 (ix2 a k)) (fun k => b1 (ix1 k)) (fun k a => W2 (ix2 k a)) (fun a => b2 (ix1 a))))
    (fun j k => W3 (ix2 j k)) (fun k => b3 (ix1 k)) (fun k q => W4 (ix2 k q)) (fun q => b4 (ix1 q)) ⟨(i 1).val, idx2_lt1 i⟩

/-- A sum over 4096 terms, taken as 32 chunks of 128. -/
theorem sum_chunks {M : Type*} [AddCommMonoid M] (f : Fin 4096 → M) (g : Fin 32 → Fin 128 → Fin 4096)
    (hg : ∀ c kk, (g c kk).val = 128 * c.val + kk.val) :
    ∑ c : Fin 32, ∑ kk : Fin 128, f (g c kk) = ∑ k : Fin 4096, f k := by
  have e := (finProdFinEquiv (m := 32) (n := 128)).sum_comp (fun k : Fin (32 * 128) => f k)
  rw [Fintype.sum_prod_type] at e
  refine Eq.trans ?_ e
  refine Finset.sum_congr rfl fun c _ => Finset.sum_congr rfl fun kk _ => congrArg f (Fin.ext ?_)
  rw [hg]
  show 128 * c.val + kk.val = kk.val + 128 * c.val
  omega

/-- A bias folded into a contraction by a last left factor of one. -/
theorem sum_aug {n : ℕ} (xa wa : Fin (n + 1) → EReal) (h1 : xa (Fin.last n) = 1) :
    ∑ i : Fin (n + 1), xa i * wa i = (∑ i : Fin n, xa i.castSucc * wa i.castSucc) + wa (Fin.last n) := by
  rw [Fin.sum_univ_castSucc, h1, one_mul]

/-! ## The tiled computation's row-level forms, and why they are `net`, `side`, `head` -/

/-- The branch as the kernel forms it: the input row carries a trailing 1 and the first matrix a last row (33 terms),
    and the second bias comes first. -/
def hidRow (xr : Fin 33 → EReal) (A1 : Fin 33 → Fin 4096 → EReal) (A2 : Fin 4096 → Fin 32 → EReal) (c2 : Fin 32 → EReal)
    (j : Fin 32) : EReal :=
  max (c2 j + ∑ k : Fin 4096, max (∑ i : Fin 33, xr i * A1 i k) 0 * A2 k j) 0

/-- Two rows of 32 side by side, then a 1. -/
def pairRow (a b : Fin 32 → EReal) (j : Fin 65) : EReal :=
  if h : j.val < 32 then a ⟨j.val, h⟩ else if h2 : j.val < 64 then b ⟨j.val - 32, by omega⟩ else 1

/-- The predictor as the kernel forms it: 65 terms, the last bias first. -/
def outRow (u : Fin 65 → EReal) (A4 : Fin 65 → Fin 4096 → EReal) (A5 : Fin 4096 → Fin 128 → EReal) (c6 : Fin 128 → EReal)
    (q : Fin 128) : EReal :=
  c6 q + ∑ k : Fin 4096, max (∑ j : Fin 65, u j * A4 j k) 0 * A5 k q

/-- With the trailing 1 on the row and `b1` as the first matrix's last row, the kernel's branch is `net`. -/
theorem hidRow_eq_net (xr : Fin 33 → EReal) (A1 : Fin 33 → Fin 4096 → EReal) (A2 : Fin 4096 → Fin 32 → EReal) (c2 : Fin 32 → EReal)
    (X : Fin 32 → EReal) (W1 : Fin 32 → Fin 4096 → EReal) (b1 : Fin 4096 → EReal)
    (hx : ∀ i : Fin 32, xr i.castSucc = X i) (hx1 : xr (Fin.last 32) = 1)
    (hA : ∀ (i : Fin 32) (k : Fin 4096), A1 i.castSucc k = W1 i k) (hb : ∀ k : Fin 4096, A1 (Fin.last 32) k = b1 k) (j : Fin 32) :
    hidRow xr A1 A2 c2 j = net X W1 b1 A2 c2 j := by
  unfold hidRow net
  rw [add_comm]
  refine congrArg (fun z => max (z + c2 j) 0) (Finset.sum_congr rfl fun k _ => ?_)
  rw [sum_aug _ _ hx1, hb]
  simp only [hx, hA]

theorem pairRow_castSucc (a b : Fin 32 → EReal) (j : Fin 64) : pairRow a b j.castSucc = side a b j := by
  unfold pairRow side
  have hj : (j.castSucc : Fin 65).val = j.val := rfl
  have hlt : j.val < 64 := j.isLt
  simp only [hj, hlt, dite_true]

theorem pairRow_last (a b : Fin 32 → EReal) : pairRow a b (Fin.last 64) = 1 := by
  unfold pairRow
  have h1 : ¬ (Fin.last 64).val < 32 := by simp
  have h2 : ¬ (Fin.last 64).val < 64 := by simp
  rw [dif_neg h1, dif_neg h2]

/-- With the trailing 1 on the paired row and `b3` as the third matrix's last row, the kernel's predictor is `head`. -/
theorem outRow_eq_head (u : Fin 65 → EReal) (A4 : Fin 65 → Fin 4096 → EReal) (A5 : Fin 4096 → Fin 128 → EReal) (c6 : Fin 128 → EReal)
    (Z : Fin 64 → EReal) (W3 : Fin 64 → Fin 4096 → EReal) (b3 : Fin 4096 → EReal)
    (hu : ∀ j : Fin 64, u j.castSucc = Z j) (hu1 : u (Fin.last 64) = 1)
    (hA : ∀ (j : Fin 64) (k : Fin 4096), A4 j.castSucc k = W3 j k) (hb : ∀ k : Fin 4096, A4 (Fin.last 64) k = b3 k) (q : Fin 128) :
    outRow u A4 A5 c6 q = head Z W3 b3 A5 c6 q := by
  unfold outRow head
  rw [add_comm]
  refine congrArg (fun z => z + c6 q) (Finset.sum_congr rfl fun k _ => ?_)
  rw [sum_aug _ _ hu1, hb]
  simp only [hu, hA]

/-! ## A trailing one on a row, a bias as a matrix's last row -/

/-- A row of 32 with a trailing 1. -/
def augRow (X : Fin 32 → EReal) (i : Fin 33) : EReal := if h : i.val < 32 then X ⟨i.val, h⟩ else 1

/-- A matrix of `n` rows with `b` as an extra last row. -/
def augMat {n : ℕ} (W : Fin n → Fin 4096 → EReal) (b : Fin 4096 → EReal) (i : Fin (n + 1)) (k : Fin 4096) : EReal :=
  if h : i.val < n then W ⟨i.val, h⟩ k else b k

theorem augRow_castSucc (X : Fin 32 → EReal) (i : Fin 32) : augRow X i.castSucc = X i := by
  unfold augRow
  have h : (i.castSucc : Fin 33).val < 32 := i.isLt
  rw [dif_pos h]
  rfl

theorem augRow_last (X : Fin 32 → EReal) : augRow X (Fin.last 32) = 1 := by
  unfold augRow
  have h : ¬ (Fin.last 32).val < 32 := by simp
  rw [dif_neg h]

theorem augMat_castSucc {n : ℕ} (W : Fin n → Fin 4096 → EReal) (b : Fin 4096 → EReal) (i : Fin n) (k : Fin 4096) :
    augMat W b i.castSucc k = W i k := by
  unfold augMat
  have h : (i.castSucc : Fin (n + 1)).val < n := i.isLt
  rw [dif_pos h]
  rfl

theorem augMat_last {n : ℕ} (W : Fin n → Fin 4096 → EReal) (b : Fin 4096 → EReal) (k : Fin 4096) :
    augMat W b (Fin.last n) k = b k := by
  unfold augMat
  have h : ¬ (Fin.last n).val < n := by simp
  rw [dif_neg h]

end Cert.Siamese

end
-- ==== Proof.StreamAt.lean ====
/-
  One row-stream read at an index.

  Entry `(p, q)` of a stream is
      b4 q + ∑ k < 4096, max (∑ j < 65, u j · W3aug j k, 0) · W4 k q,
  where `u` is row `p` of the paired second-layer outputs: for `j < 32` the branch value of stacked row `p`, for
  `32 ≤ j < 64` that of stacked row `1024 + p`, and `1` at `j = 64`; and the branch value of a stacked row `r` is
      max (b2 j + ∑ k < 4096, max (∑ i < 33, x r i · W1aug i k, 0) · W2 k j, 0).
  Each accumulator is read by induction on the number of chunks taken (chunk `n` adds the 128 terms
  `128 n … 128 n + 127`), and the 32 chunks are then one sum over 4096.
-/
import proofs.«138751_g11802570129985_cont_fleet_79_19_alg».proof.Proof.Stream
import proofs.«138751_g11802570129985_cont_fleet_79_19_alg».proof.Proof.Spec
import Idealize.ShloMosaic.Lib.ValueLayout

noncomputable section

namespace Cert.KernelIdeal.Siamese

open Cert.KernelIdeal Cert.KernelIdeal.Gen Idealize.ShloMosaic Idealize.ShloMosaic.TcCoe Idealize.ShloMosaic.ValueIdx
open Cert.Siamese

theorem zero_bf16 : FloatOps.ofBits (F := Ideal) .bf16 0x0000#16 = 0 := Ideal.ofBits_zero_bf16
theorem zero_f32 : FloatOps.ofBits (F := Ideal) .f32 0x00000000#32 = 0 := Ideal.ofBits_zero_f32
theorem one_f32 : FloatOps.ofBits (F := Ideal) .f32 0x3F800000#32 = 1 := Ideal.ofBits_one_f32

/-- Hidden unit `kk` of chunk `n`, as a hidden unit of the whole layer. -/
abbrev col (n : ℕ) (h : n < 32) (kk : Fin 128) : Fin 4096 := ⟨128 * n + kk.val, by omega⟩

theorem hz2 : (![0, 0] : Fin 2 → Nat) = fun _ => 0 := funext fun a => by fin_cases a <;> rfl

/-! ## Layers one and two -/

theorem hidden1_apply (x : FVec Ideal S2048x33 .bf16) (w : FVec Ideal S33x128 .bf16) (p : Fin 2048) (kk : Fin 128) :
    hidden1 x w (ix2 p kk) = max (∑ i : Fin 33, x (ix2 p i) * w (ix2 i kk)) 0 := by
  unfold hidden1
  rw [maximumf_apply, truncf_apply, shapeCast_self, mm1, broadcast_apply]
  exact congrArg _ zero_bf16

theorem chunk12_apply (x : FVec Ideal S2048x33 .bf16) (x1 : Vec Ideal S33x4096 .bf16) (x2 : Vec Ideal S4096x32 .bf16)
    (n : ℕ) (h : n < 32) (p : Fin 2048) (j : Fin 32) :
    chunk12 x (View.ld x1 (slabW1 n h)) (View.ld x2 (slabW2 n h)) (ix2 p j)
      = ∑ kk : Fin 128, max (∑ i : Fin 33, x (ix2 p i) * x1 (ix2 i (col n h kk))) 0 * x2 (ix2 (col n h kk) j) := by
  unfold chunk12
  rw [shapeCast_self, mm2]
  refine Finset.sum_congr rfl fun kk _ => ?_
  rw [hidden1_apply, slabW2_read]
  exact congrArg (fun z => max z 0 * x2 (ix2 (col n h kk) j))
    (Finset.sum_congr rfl fun i _ => congrArg (x (ix2 p i) * ·) (slabW1_read x1 n h i kk))

theorem acc12_apply (x : FVec Ideal S2048x33 .bf16) (x1 : Vec Ideal S33x4096 .bf16) (x2 : Vec Ideal S4096x32 .bf16)
    (b : FVec Ideal S2048x32 .f32) (p : Fin 2048) (j : Fin 32) :
    ∀ (n : ℕ) (h : n ≤ 32), acc12 x x1 x2 b n h (ix2 p j)
      = b (ix2 p j) + ∑ c : Fin n, ∑ kk : Fin 128,
          max (∑ i : Fin 33, x (ix2 p i) * x1 (ix2 i (col c.val (lt_of_lt_of_le c.isLt h) kk))) 0
            * x2 (ix2 (col c.val (lt_of_lt_of_le c.isLt h) kk) j)
  | 0, _ => by simp [acc12]
  | n + 1, h => by
    rw [acc12, addf_apply, acc12_apply x x1 x2 b p j n (by omega), chunk12_apply, Fin.sum_univ_castSucc (n := n), add_assoc]
    rfl

/-- A stacked row's second-layer output. -/
theorem layer2_apply (x : FVec Ideal S2048x33 .bf16) (x1 : Vec Ideal S33x4096 .bf16) (x2 : Vec Ideal S4096x32 .bf16)
    (x3 : Vec Ideal S1x32 .f32) (p : Fin 2048) (j : Fin 32) :
    (maximumf (acc12 x x1 x2 (broadcastTo S2048x32 (shapeCast S1x32 (View.ld x3 r0_1) shapeCasts_S1x32_S1x32) broadcasts_S1x32_S2048x32) 32 le_rfl)
        (broadcast S2048x32 (Scalar.ofBits .f32 0x00000000#32))) (ix2 p j)
      = hidRow (fun i => x (ix2 p i)) (fun i k => x1 (ix2 i k)) (fun k a => x2 (ix2 k a)) (fun a => x3 (ix2 (0 : Fin 1) a)) j := by
  rw [maximumf_apply, acc12_apply, broadcast_apply, broadcastTo_1b_ab_apply]
  simp only [View.ld_unit_zero (S := S1x32) hz2]
  rw [shapeCast_self (s := S1x32) x3 shapeCasts_S1x32_S1x32]
  unfold hidRow
  rw [sum_chunks (fun k : Fin 4096 => max (∑ i : Fin 33, x (ix2 p i) * x1 (ix2 i k)) 0 * x2 (ix2 k j))
    (fun c kk => col c.val c.isLt kk) (fun _ _ => rfl)]
  exact congrArg _ zero_f32

/-! ## The paired rows -/

/-- The three pieces joined along the columns. -/
abbrev pieces (o : FVec Ideal S2048x32 .f32) : List ((s : Shape) × (s.Idx → Ideal .f32)) :=
  [⟨S1024x32, extractStridedSlice S1024x32 ![0, 0] o slices_S2048x32_o0_0_S1024x32⟩,
   ⟨S1024x32, extractStridedSlice S1024x32 ![1024, 0] o slices_S2048x32_o1024_0_S1024x32⟩,
   ⟨S1024x1, broadcast S1024x1 (Scalar.ofBits .f32 0x3F800000#32)⟩]

theorem paired_left (o : FVec Ideal S2048x32 .f32) (p : Fin 1024) (j : Fin 65) (hj : j.val < 32) :
    paired o (ix2 p j) = o (ix2 ⟨p.val, by omega⟩ ⟨j.val, hj⟩) := by
  unfold paired
  rw [truncf_apply]
  refine (concatenate_apply_piece (1 : Fin S1024x65.rank) (pieces o) concatenates_S1024x32_S1024x32_S1024x1_S1024x65_d1 (ix2 p j)
    0 (by show 0 < 3; omega) S1024x32 _ rfl rfl 0 rfl (ix2 p ⟨j.val, hj⟩) (fun b hb => ?_) ?_).trans ?_
  · match b with
    | ⟨0, _⟩ => rfl
    | ⟨1, _⟩ => exact absurd rfl hb
  · exact Nat.zero_add _
  · exact slice2_axis0_apply 0 o slices_S2048x32_o0_0_S1024x32 p ⟨j.val, hj⟩ ⟨p.val, by omega⟩ (Nat.zero_add _).symm

theorem paired_right (o : FVec Ideal S2048x32 .f32) (p : Fin 1024) (j : Fin 65) (h1 : 32 ≤ j.val) (h2 : j.val < 64) :
    paired o (ix2 p j) = o (ix2 ⟨1024 + p.val, by omega⟩ ⟨j.val - 32, by omega⟩) := by
  unfold paired
  rw [truncf_apply]
  refine (concatenate_apply_piece (1 : Fin S1024x65.rank) (pieces o) concatenates_S1024x32_S1024x32_S1024x1_S1024x65_d1 (ix2 p j)
    1 (by show 1 < 3; omega) S1024x32 _ rfl rfl 32 rfl (ix2 p ⟨j.val - 32, by omega⟩) (fun b hb => ?_) ?_).trans ?_
  · match b with
    | ⟨0, _⟩ => rfl
    | ⟨1, _⟩ => exact absurd rfl hb
  · show 32 + (j.val - 32) = j.val
    omega
  · exact slice2_axis0_apply 1024 o slices_S2048x32_o1024_0_S1024x32 p ⟨j.val - 32, by omega⟩ ⟨1024 + p.val, by omega⟩ rfl

theorem paired_one (o : FVec Ideal S2048x32 .f32) (p : Fin 1024) (j : Fin 65) (h : 64 ≤ j.val) :
    paired o (ix2 p j) = 1 := by
  unfold paired
  rw [truncf_apply]
  refine (concatenate_apply_piece (1 : Fin S1024x65.rank) (pieces o) concatenates_S1024x32_S1024x32_S1024x1_S1024x65_d1 (ix2 p j)
    2 (by show 2 < 3; omega) S1024x1 _ rfl rfl 64 rfl (ix2 p (0 : Fin 1)) (fun b hb => ?_) ?_).trans ?_
  · match b with
    | ⟨0, _⟩ => rfl
    | ⟨1, _⟩ => exact absurd rfl hb
  · show 64 + 0 = j.val
    have := j.isLt
    omega
  · exact one_f32

/-- Row `p` of the paired outputs: stacked rows `p` and `1024 + p` side by side, then a 1. -/
theorem paired_apply (o : FVec Ideal S2048x32 .f32) (p : Fin 1024) (j : Fin 65) :
    paired o (ix2 p j)
      = pairRow (fun a => o (ix2 ⟨p.val, by omega⟩ a)) (fun a => o (ix2 ⟨1024 + p.val, by omega⟩ a)) j := by
  unfold pairRow
  by_cases h : j.val < 32
  · rw [dif_pos h]; exact paired_left o p j h
  · rw [dif_neg h]
    by_cases h2 : j.val < 64
    · rw [dif_pos h2]; exact paired_right o p j (by omega) h2
    · rw [dif_neg h2]; exact paired_one o p j (by omega)

/-! ## Layers three and four -/

theorem hidden3_apply (u : FVec Ideal S1024x65 .bf16) (w : FVec Ideal S65x128 .bf16) (p : Fin 1024) (kk : Fin 128) :
    hidden3 u w (ix2 p kk) = max (∑ j : Fin 65, u (ix2 p j) * w (ix2 j kk)) 0 := by
  unfold hidden3
  rw [maximumf_apply, truncf_apply, shapeCast_self, mm3, broadcast_apply]
  exact congrArg _ zero_bf16

theorem chunk34_apply (u : FVec Ideal S1024x65 .bf16) (x4 : Vec Ideal S65x4096 .bf16) (x5 : Vec Ideal S4096x128 .bf16)
    (n : ℕ) (h : n < 32) (p : Fin 1024) (q : Fin 128) :
    chunk34 u (View.ld x4 (slabW3 n h)) (View.ld x5 (slabW4 n h)) (ix2 p q)
      = ∑ kk : Fin 128, max (∑ j : Fin 65, u (ix2 p j) * x4 (ix2 j (col n h kk))) 0 * x5 (ix2 (col n h kk) q) := by
  unfold chunk34
  rw [shapeCast_self, mm4]
  refine Finset.sum_congr rfl fun kk _ => ?_
  rw [hidden3_apply, slabW4_read]
  exact congrArg (fun z => max z 0 * x5 (ix2 (col n h kk) q))
    (Finset.sum_congr rfl fun j _ => congrArg (u (ix2 p j) * ·) (slabW3_read x4 n h j kk))

theorem acc34_apply (u : FVec Ideal S1024x65 .bf16) (x4 : Vec Ideal S65x4096 .bf16) (x5 : Vec Ideal S4096x128 .bf16)
    (b : FVec Ideal S1024x128 .f32) (p : Fin 1024) (q : Fin 128) :
    ∀ (n : ℕ) (h : n ≤ 32), acc34 u x4 x5 b n h (ix2 p q)
      = b (ix2 p q) + ∑ c : Fin n, ∑ kk : Fin 128,
          max (∑ j : Fin 65, u (ix2 p j) * x4 (ix2 j (col c.val (lt_of_lt_of_le c.isLt h) kk))) 0
            * x5 (ix2 (col c.val (lt_of_lt_of_le c.isLt h) kk) q)
  | 0, _ => by simp [acc34]
  | n + 1, h => by
    rw [acc34, addf_apply, acc34_apply u x4 x5 b p q n (by omega), chunk34_apply, Fin.sum_univ_castSucc (n := n), add_assoc]
    rfl

/-- All 32 chunks: one sum over the 4096 hidden units. -/
theorem acc34_full (u : FVec Ideal S1024x65 .bf16) (x4 : Vec Ideal S65x4096 .bf16) (x5 : Vec Ideal S4096x128 .bf16)
    (b : FVec Ideal S1024x128 .f32) (p : Fin 1024) (q : Fin 128) :
    acc34 u x4 x5 b 32 le_rfl (ix2 p q)
      = b (ix2 p q) + ∑ k : Fin 4096, max (∑ j : Fin 65, u (ix2 p j) * x4 (ix2 j k)) 0 * x5 (ix2 k q) := by
  rw [acc34_apply, sum_chunks (fun k : Fin 4096 => max (∑ j : Fin 65, u (ix2 p j) * x4 (ix2 j k)) 0 * x5 (ix2 k q))
    (fun c kk => col c.val c.isLt kk) (fun _ _ => rfl)]

/-- Entry `(p, q)` of a stream, in the row-level forms. -/
theorem stream_apply (x : FVec Ideal S2048x33 .bf16) (x1 : Vec Ideal S33x4096 .bf16) (x2 : Vec Ideal S4096x32 .bf16)
    (x3 : Vec Ideal S1x32 .f32) (x4 : Vec Ideal S65x4096 .bf16) (x5 : Vec Ideal S4096x128 .bf16) (x6 : Vec Ideal S1x128 .f32)
    (p : Fin 1024) (q : Fin 128) :
    stream x x1 x2 x3 x4 x5 x6 (ix2 p q)
      = outRow
          (pairRow
            (hidRow (fun i => x (ix2 ⟨p.val, by omega⟩ i)) (fun i k => x1 (ix2 i k)) (fun k a => x2 (ix2 k a)) (fun a => x3 (ix2 (0 : Fin 1) a)))
            (hidRow (fun i => x (ix2 ⟨1024 + p.val, by omega⟩ i)) (fun i k => x1 (ix2 i k)) (fun k a => x2 (ix2 k a)) (fun a => x3 (ix2 (0 : Fin 1) a))))
          (fun j k => x4 (ix2 j k)) (fun k a => x5 (ix2 k a)) (fun a => x6 (ix2 (0 : Fin 1) a)) q := by
  unfold stream
  rw [acc34_full, broadcastTo_1b_ab_apply]
  simp only [View.ld_unit_zero (S := S1x128) hz2]
  rw [shapeCast_self (s := S1x128) x6 shapeCasts_S1x128_S1x128]
  unfold outRow
  simp only [paired_apply, layer2_apply]

end Cert.KernelIdeal.Siamese

end
-- ==== Proof.HostArrays.lean ====
/-
  The arrays the region finds, read at an index.

  Before the region the program builds, from the arguments:
  * the stacked input (32768 × 33): each input gets a trailing column of ones, is cut into 16 groups of 1024 rows, and
    group `g` of `state` is followed by group `g` of `next_state`; so row `2048 g + h` is row `1024 g + h` of
    `state` with a 1 appended when `h < 1024`, and row `1024 g + (h - 1024)` of `next_state` with a 1 appended otherwise;
  * `[W1; b1]` (33 × 4096) and `[W3; b3]` (65 × 4096): the bias as an extra last row;
  * `W2`, `W4` unchanged, and `b2`, `b4` as one-row matrices.
  Changes of float format are the identity here.
-/
import proofs.«138751_g11802570129985_cont_fleet_79_19_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import proofs.«138751_g11802570129985_cont_fleet_79_19_alg».proof.Proof.Spec

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.Siamese

/-! ## The stacked input -/

/-- An input with a trailing column of ones. -/
def withOnes (X : FVec Ideal S16384x32 .f32) : FVec Ideal S16384x33 .bf16 :=
  truncf .bf16 (concatenate S16384x33 1
    [⟨S16384x32, X⟩, ⟨S16384x1, broadcastInDim S16384x1 ![] bcast_S_S16384x1 (constant (F := Ideal) S_ .f32 0x3F800000#32)⟩]
    concatenates_S16384x32_S16384x1_S16384x33_d1) bitsLt_bf16_f32

theorem withOnes_apply (X : FVec Ideal S16384x32 .f32) (r : Fin 16384) (i : Fin 33) :
    withOnes X (ix2 r i) = augRow (fun a => X (ix2 r a)) i := by
  unfold withOnes augRow
  rw [truncf_apply]
  by_cases h : i.val < 32
  · rw [dif_pos h]
    exact concatenate_pair_apply_left (1 : Fin S16384x33.rank) _ _ concatenates_S16384x32_S16384x1_S16384x33_d1 (ix2 r i) rfl
      (ix2 r ⟨i.val, h⟩) (fun b => by
        match b with
        | ⟨0, _⟩ => rfl
        | ⟨1, _⟩ => rfl)
  · rw [dif_neg h]
    refine (concatenate_pair_apply_right (1 : Fin S16384x33.rank) _ _ concatenates_S16384x32_S16384x1_S16384x33_d1 (ix2 r i) rfl rfl
      (ix2 r (0 : Fin 1)) (fun b hb => by
        match b with
        | ⟨0, _⟩ => rfl
        | ⟨1, _⟩ => exact absurd rfl hb) (by
        show 0 + 32 = i.val
        have := i.isLt
        omega)).trans ?_
    refine (broadcastInDim_apply _ bcast_S_S16384x1 _ (ix2 r (0 : Fin 1)) ix0 (fun a => a.elim0)).trans ?_
    exact Ideal.ofBits_one_f32

/-- Two arrays of 16384 rows interleaved in groups of 1024 rows. -/
def stacked (A B : FVec Ideal S16384x33 .bf16) : FVec Ideal S32768x33 .bf16 :=
  shapeCast S32768x33 (concatenate S16x2048x33 1
    [⟨S16x1024x33, shapeCast S16x1024x33 A shapeCasts_S16384x33_S16x1024x33⟩,
     ⟨S16x1024x33, shapeCast S16x1024x33 B shapeCasts_S16384x33_S16x1024x33⟩]
    concatenates_S16x1024x33_S16x1024x33_S16x2048x33_d1) shapeCasts_S16x2048x33_S32768x33

theorem group_read (A : FVec Ideal S16384x33 .bf16) (g : Fin 16) (h : Fin 1024) (i : Fin 33) :
    shapeCast S16x1024x33 A shapeCasts_S16384x33_S16x1024x33 (ix3 g h i) = A (ix2 ⟨1024 * g.val + h.val, by omega⟩ i) :=
  shapeCast_apply A shapeCasts_S16384x33_S16x1024x33 _ _ (by
    rw [Shape.rowMajor_val_two, Shape.rowMajor_val_three]
    show (1024 * g.val + h.val) * 33 + i.val = (g.val * 1024 + h.val) * 33 + i.val
    omega)

theorem stacked_lo (A B : FVec Ideal S16384x33 .bf16) (g : Fin 16) (h : Fin 1024) (i : Fin 33) :
    stacked A B (ix2 ⟨2048 * g.val + h.val, by omega⟩ i) = A (ix2 ⟨1024 * g.val + h.val, by omega⟩ i) := by
  unfold stacked
  refine (shapeCast_apply _ shapeCasts_S16x2048x33_S32768x33 _ (ix3 g ⟨h.val, by omega⟩ i) (by
    rw [Shape.rowMajor_val_two, Shape.rowMajor_val_three]
    show (g.val * 2048 + h.val) * 33 + i.val = (2048 * g.val + h.val) * 33 + i.val
    omega)).trans ?_
  refine (concatenate_pair_apply_left (1 : Fin S16x2048x33.rank) _ _ concatenates_S16x1024x33_S16x1024x33_S16x2048x33_d1
    (ix3 g ⟨h.val, by omega⟩ i) rfl (ix3 g h i) (fun b => by
      match b with
      | ⟨0, _⟩ => rfl
      | ⟨1, _⟩ => rfl
      | ⟨2, _⟩ => rfl)).trans ?_
  exact group_read A g h i

theorem stacked_hi (A B : FVec Ideal S16384x33 .bf16) (g : Fin 16) (h : Fin 1024) (i : Fin 33) :
    stacked A B (ix2 ⟨2048 * g.val + 1024 + h.val, by omega⟩ i) = B (ix2 ⟨1024 * g.val + h.val, by omega⟩ i) := by
  unfold stacked
  refine (shapeCast_apply _ shapeCasts_S16x2048x33_S32768x33 _ (ix3 g ⟨1024 + h.val, by omega⟩ i) (by
    rw [Shape.rowMajor_val_two, Shape.rowMajor_val_three]
    show (g.val * 2048 + (1024 + h.val)) * 33 + i.val = (2048 * g.val + 1024 + h.val) * 33 + i.val
    omega)).trans ?_
  refine (concatenate_pair_apply_right (1 : Fin S16x2048x33.rank) _ _ concatenates_S16x1024x33_S16x1024x33_S16x2048x33_d1
    (ix3 g ⟨1024 + h.val, by omega⟩ i) rfl rfl (ix3 g h i) (fun b hb => by
      match b with
      | ⟨0, _⟩ => rfl
      | ⟨1, _⟩ => exact absurd rfl hb
      | ⟨2, _⟩ => rfl) (by
      show h.val + 1024 = 1024 + h.val
      omega)).trans ?_
  exact group_read B g h i

variable (m : (ℓ : Loc nD τ sig) → Buf (Elt Ideal) ℓ)

/-- The stacked input as the region finds it. -/
theorem V8_eq (c : Dev nD) :
    (V m c main_v8 : S32768x33.Idx → EReal) = stacked (withOnes (m ((c : Thread nD τ).loc main_arg0))) (withOnes (m ((c : Thread nD τ).loc main_arg1))) := by
  dsimp only [Gen.V, Gen.hostOps0]
  after_results
  rfl

/-! ## The weights and biases -/

theorem V11_at (c : Dev nD) (i : Fin 33) (k : Fin 4096) :
    (V m c main_v11 : S33x4096.Idx → EReal) (ix2 i k)
      = augMat (fun a k => (m ((c : Thread nD τ).loc main_arg2)) (ix2 a k)) (fun k => (m ((c : Thread nD τ).loc main_arg3)) (ix1 k)) i k := by
  have e : (V m c main_v11 : S33x4096.Idx → EReal) = truncf (F := Ideal) .bf16 (concatenate S33x4096 0
      [⟨S32x4096, (m ((c : Thread nD τ).loc main_arg2))⟩, ⟨S1x4096, broadcastInDim S1x4096 ![1] bcast_S4096_S1x4096_1 (m ((c : Thread nD τ).loc main_arg3))⟩]
      concatenates_S32x4096_S1x4096_S33x4096_d0) bitsLt_bf16_f32 := by
    dsimp only [Gen.V, Gen.hostOps0]
    after_results
  rw [e, truncf_apply]
  unfold augMat
  by_cases h : i.val < 32
  · rw [dif_pos h]
    exact concatenate_pair_apply_left (0 : Fin S33x4096.rank) _ _ concatenates_S32x4096_S1x4096_S33x4096_d0 (ix2 i k) rfl
      (ix2 ⟨i.val, h⟩ k) (fun b => by
        match b with
        | ⟨0, _⟩ => rfl
        | ⟨1, _⟩ => rfl)
  · rw [dif_neg h]
    refine (concatenate_pair_apply_right (0 : Fin S33x4096.rank) _ _ concatenates_S32x4096_S1x4096_S33x4096_d0 (ix2 i k) rfl rfl
      (ix2 (0 : Fin 1) k) (fun b hb => by
        match b with
        | ⟨0, _⟩ => exact absurd rfl hb
        | ⟨1, _⟩ => rfl) (by
        show 0 + 32 = i.val
        have := i.isLt
        omega)).trans ?_
    exact broadcastInDim_apply _ bcast_S4096_S1x4096_1 _ (ix2 (0 : Fin 1) k) (ix1 k) (fun a => by
      match a with
      | ⟨0, _⟩ =>
        show k.val = if (4096 : Nat) = 1 then 0 else k.val
        rw [if_neg (by decide)])

theorem V14_at (c : Dev nD) (j : Fin 65) (k : Fin 4096) :
    (V m c main_v14 : S65x4096.Idx → EReal) (ix2 j k)
      = augMat (fun a k => (m ((c : Thread nD τ).loc main_arg6)) (ix2 a k)) (fun k => (m ((c : Thread nD τ).loc main_arg7)) (ix1 k)) j k := by
  have e : (V m c main_v14 : S65x4096.Idx → EReal) = truncf (F := Ideal) .bf16 (concatenate S65x4096 0
      [⟨S64x4096, (m ((c : Thread nD τ).loc main_arg6))⟩, ⟨S1x4096, broadcastInDim S1x4096 ![1] bcast_S4096_S1x4096_1 (m ((c : Thread nD τ).loc main_arg7))⟩]
      concatenates_S64x4096_S1x4096_S65x4096_d0) bitsLt_bf16_f32 := by
    dsimp only [Gen.V, Gen.hostOps0]
    after_results
  rw [e, truncf_apply]
  unfold augMat
  by_cases h : j.val < 64
  · rw [dif_pos h]
    exact concatenate_pair_apply_left (0 : Fin S65x4096.rank) _ _ concatenates_S64x4096_S1x4096_S65x4096_d0 (ix2 j k) rfl
      (ix2 ⟨j.val, h⟩ k) (fun b => by
        match b with
        | ⟨0, _⟩ => rfl
        | ⟨1, _⟩ => rfl)
  · rw [dif_neg h]
    refine (concatenate_pair_apply_right (0 : Fin S65x4096.rank) _ _ concatenates_S64x4096_S1x4096_S65x4096_d0 (ix2 j k) rfl rfl
      (ix2 (0 : Fin 1) k) (fun b hb => by
        match b with
        | ⟨0, _⟩ => exact absurd rfl hb
        | ⟨1, _⟩ => rfl) (by
        show 0 + 64 = j.val
        have := j.isLt
        omega)).trans ?_
    exact broadcastInDim_apply _ bcast_S4096_S1x4096_1 _ (ix2 (0 : Fin 1) k) (ix1 k) (fun a => by
      match a with
      | ⟨0, _⟩ =>
        show k.val = if (4096 : Nat) = 1 then 0 else k.val
        rw [if_neg (by decide)])

theorem V15_eq (c : Dev nD) : (V m c main_v15 : S4096x32.Idx → EReal) = (m ((c : Thread nD τ).loc main_arg4)) := by
  dsimp only [Gen.V, Gen.hostOps0]
  after_results
  rfl

theorem V17_eq (c : Dev nD) : (V m c main_v17 : S4096x128.Idx → EReal) = (m ((c : Thread nD τ).loc main_arg8)) := by
  dsimp only [Gen.V, Gen.hostOps0]
  after_results
  rfl

theorem V16_at (c : Dev nD) (a : Fin 32) : (V m c main_v16 : S1x32.Idx → EReal) (ix2 (0 : Fin 1) a) = (m ((c : Thread nD τ).loc main_arg5)) (ix1 a) := by
  have e : (V m c main_v16 : S1x32.Idx → EReal) = shapeCast S1x32 (m ((c : Thread nD τ).loc main_arg5)) shapeCasts_S32_S1x32 := by
    dsimp only [Gen.V, Gen.hostOps0]
    after_results
    rfl
  rw [e]
  exact shapeCast_a_1a_apply _ shapeCasts_S32_S1x32 0 a

theorem V18_at (c : Dev nD) (q : Fin 128) : (V m c main_v18 : S1x128.Idx → EReal) (ix2 (0 : Fin 1) q) = (m ((c : Thread nD τ).loc main_arg9)) (ix1 q) := by
  have e : (V m c main_v18 : S1x128.Idx → EReal) = shapeCast S1x128 (m ((c : Thread nD τ).loc main_arg9)) shapeCasts_S128_S1x128 := by
    dsimp only [Gen.V, Gen.hostOps0]
    after_results
    rfl
  rw [e]
  exact shapeCast_a_1a_apply _ shapeCasts_S128_S1x128 0 q

end Cert.KernelIdeal.Host

end
-- ==== Proof.KernelValue.lean ====
/-
  The kernel's result array is `G` of the arguments.

  A grid point `t` (of 8) stages rows `4096 t … 4096 t + 4095` of the stacked input and the whole weight arrays, and
  writes back rows `2048 t … 2048 t + 2047` of the result. Output row `r` of the block belongs to stream `r / 1024`;
  its `state` row is row `r + 1024 (r / 1024)` of the staged input block and its `next_state` row is 1024 rows further
  (`blockAt`). The body's two stores are the two halves of that one function of the block index (`out0_7_apply`).
  In the stacked input those two block rows are rows `2048 t + r` of `state` and of `next_state`, each with a 1
  appended; with `b1`, `b3` as the last rows of the first and third matrices this is `G` at row `2048 t + r`
  (`block_eq_G`: the bias folded into the product by the column of ones, `Cert.Siamese.sum_aug`). The eight blocks
  cover the result array.
-/
import proofs.«138751_g11802570129985_cont_fleet_79_19_alg».proof.Proof.Gen.KernelIdeal.Value
import proofs.«138751_g11802570129985_cont_fleet_79_19_alg».proof.Proof.StreamAt
import proofs.«138751_g11802570129985_cont_fleet_79_19_alg».proof.Proof.HostArrays

noncomputable section

namespace Cert.Siamese

/-- The kernel's branch on a row with a trailing 1 against `[W1; b1]` is `net`. -/
theorem hidRow_aug (X : Fin 32 → EReal) (W1 : Fin 32 → Fin 4096 → EReal) (b1 : Fin 4096 → EReal)
    (A2 : Fin 4096 → Fin 32 → EReal) (c2 : Fin 32 → EReal) :
    hidRow (augRow X) (augMat W1 b1) A2 c2 = net X W1 b1 A2 c2 :=
  funext fun j => hidRow_eq_net (augRow X) (augMat W1 b1) A2 c2 X W1 b1 (augRow_castSucc X) (augRow_last X)
    (augMat_castSucc W1 b1) (augMat_last W1 b1) j

/-- The kernel's predictor on a paired row against `[W3; b3]` is `head`. -/
theorem outRow_aug (a b : Fin 32 → EReal) (W3 : Fin 64 → Fin 4096 → EReal) (b3 : Fin 4096 → EReal)
    (A5 : Fin 4096 → Fin 128 → EReal) (c6 : Fin 128 → EReal) :
    outRow (pairRow a b) (augMat W3 b3) A5 c6 = head (side a b) W3 b3 A5 c6 :=
  funext fun q => outRow_eq_head (pairRow a b) (augMat W3 b3) A5 c6 (side a b) W3 b3 (pairRow_castSucc a b) (pairRow_last a b)
    (augMat_castSucc W3 b3) (augMat_last W3 b3) q

end Cert.Siamese

namespace Cert.KernelIdeal.KVal

open Cert.KernelIdeal Cert.KernelIdeal.Gen Cert.KernelIdeal.Siamese Cert.KernelIdeal.Host
open Idealize.ShloMosaic Idealize.ShloMosaic.TcCoe Idealize.SL.Sem Idealize.ShloMosaic.ValueIdx Cert.Siamese
open Idealize.ShloMosaic.Pipeline (Dat)

/-! ## The output block as one function of the staged blocks -/

/-- Entry `(r, q)` of the output block. -/
def blockAt (x0 : Vec Ideal S4096x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32) (r : Fin 2048) (q : Fin 128) : EReal :=
  outRow
    (pairRow
      (hidRow (fun i => x0 (ix2 ⟨r.val + 1024 * (r.val / 1024), by have := r.isLt; omega⟩ i))
        (fun i k => x1 (ix2 i k)) (fun k a => x2 (ix2 k a)) (fun a => x3 (ix2 (0 : Fin 1) a)))
      (hidRow (fun i => x0 (ix2 ⟨r.val + 1024 * (r.val / 1024) + 1024, by have := r.isLt; omega⟩ i))
        (fun i k => x1 (ix2 i k)) (fun k a => x2 (ix2 k a)) (fun a => x3 (ix2 (0 : Fin 1) a))))
    (fun j k => x4 (ix2 j k)) (fun k a => x5 (ix2 k a)) (fun a => x6 (ix2 (0 : Fin 1) a)) q

def blockFn (x0 : Vec Ideal S4096x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32) : FVec Ideal S2048x128 .f32 :=
  fun y => blockAt x0 x1 x2 x3 x4 x5 x6 ⟨(y 0).val, idx2_lt0 y⟩ ⟨(y 1).val, idx2_lt1 y⟩

theorem rows_lo (x0 : Vec Ideal S4096x33 .bf16) (r : Fin 2048) (i : Fin 33) :
    shapeCast S2048x33 (View.ld x0 r0_0) shapeCasts_S2048x33_S2048x33 (ix2 r i) = x0 (ix2 ⟨r.val, by have := r.isLt; omega⟩ i) := by
  refine (congrFun (shapeCast_self (s := S2048x33) (View.ld x0 r0_0) shapeCasts_S2048x33_S2048x33) (ix2 r i)).trans ?_
  show x0 (r0_0.emb (ix2 r i)) = _
  refine congrArg x0 (funext fun a => Fin.ext ?_)
  match a with
  | ⟨0, _⟩ => show 0 + 1 * r.val = r.val; omega
  | ⟨1, _⟩ => show 0 + 1 * i.val = i.val; omega

theorem rows_hi (x0 : Vec Ideal S4096x33 .bf16) (r : Fin 2048) (i : Fin 33) :
    shapeCast S2048x33 (View.ld x0 r0_132) shapeCasts_S2048x33_S2048x33 (ix2 r i) = x0 (ix2 ⟨2048 + r.val, by have := r.isLt; omega⟩ i) := by
  refine (congrFun (shapeCast_self (s := S2048x33) (View.ld x0 r0_132) shapeCasts_S2048x33_S2048x33) (ix2 r i)).trans ?_
  show x0 (r0_132.emb (ix2 r i)) = _
  refine congrArg x0 (funext fun a => Fin.ext ?_)
  match a with
  | ⟨0, _⟩ => show 2048 + 1 * r.val = 2048 + r.val; omega
  | ⟨1, _⟩ => show 0 + 1 * i.val = i.val; omega

/-- The first stream is rows 0…1023 of the output block. -/
theorem piece_lo (x0 : Vec Ideal S4096x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32) (p : Fin 1024) (q : Fin 128) :
    stream (shapeCast S2048x33 (View.ld x0 r0_0) shapeCasts_S2048x33_S2048x33) x1 x2 x3 x4 x5 x6 (ix2 p q)
      = blockAt x0 x1 x2 x3 x4 x5 x6 ⟨p.val, by have := p.isLt; omega⟩ q := by
  have hp := p.isLt
  have e1 : ∀ i : Fin 33, shapeCast S2048x33 (View.ld x0 r0_0) shapeCasts_S2048x33_S2048x33 (ix2 ⟨p.val, by omega⟩ i)
      = x0 (ix2 ⟨p.val + 1024 * (p.val / 1024), by omega⟩ i) := fun i =>
    (rows_lo x0 _ i).trans (congrArg (fun r => x0 (ix2 r i)) (Fin.ext (by
      show p.val = p.val + 1024 * (p.val / 1024)
      omega)))
  have e2 : ∀ i : Fin 33, shapeCast S2048x33 (View.ld x0 r0_0) shapeCasts_S2048x33_S2048x33 (ix2 ⟨1024 + p.val, by omega⟩ i)
      = x0 (ix2 ⟨p.val + 1024 * (p.val / 1024) + 1024, by omega⟩ i) := fun i =>
    (rows_lo x0 _ i).trans (congrArg (fun r => x0 (ix2 r i)) (Fin.ext (by
      show 1024 + p.val = p.val + 1024 * (p.val / 1024) + 1024
      omega)))
  rw [stream_apply]
  unfold blockAt
  simp only [e1, e2]

/-- The second stream is rows 1024…2047 of the output block. -/
theorem piece_hi (x0 : Vec Ideal S4096x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32) (p : Fin 1024) (q : Fin 128) :
    stream (shapeCast S2048x33 (View.ld x0 r0_132) shapeCasts_S2048x33_S2048x33) x1 x2 x3 x4 x5 x6 (ix2 p q)
      = blockAt x0 x1 x2 x3 x4 x5 x6 ⟨1024 + p.val, by have := p.isLt; omega⟩ q := by
  have hp := p.isLt
  have e1 : ∀ i : Fin 33, shapeCast S2048x33 (View.ld x0 r0_132) shapeCasts_S2048x33_S2048x33 (ix2 ⟨p.val, by omega⟩ i)
      = x0 (ix2 ⟨(1024 + p.val) + 1024 * ((1024 + p.val) / 1024), by omega⟩ i) := fun i =>
    (rows_hi x0 _ i).trans (congrArg (fun r => x0 (ix2 r i)) (Fin.ext (by
      show 2048 + p.val = (1024 + p.val) + 1024 * ((1024 + p.val) / 1024)
      omega)))
  have e2 : ∀ i : Fin 33, shapeCast S2048x33 (View.ld x0 r0_132) shapeCasts_S2048x33_S2048x33 (ix2 ⟨1024 + p.val, by omega⟩ i)
      = x0 (ix2 ⟨(1024 + p.val) + 1024 * ((1024 + p.val) / 1024) + 1024, by omega⟩ i) := fun i =>
    (rows_hi x0 _ i).trans (congrArg (fun r => x0 (ix2 r i)) (Fin.ext (by
      show 2048 + (1024 + p.val) = (1024 + p.val) + 1024 * ((1024 + p.val) / 1024) + 1024
      omega)))
  rw [stream_apply]
  unfold blockAt
  simp only [e1, e2]

/-- What the body leaves in the output block, at any index. -/
theorem out0_7_apply (x0 : Vec Ideal S4096x33 .bf16) (x1 : Vec Ideal S33x4096 .bf16) (x2 : Vec Ideal S4096x32 .bf16) (x3 : Vec Ideal S1x32 .f32)
    (x4 : Vec Ideal S65x4096 .bf16) (x5 : Vec Ideal S4096x128 .bf16) (x6 : Vec Ideal S1x128 .f32) (y : S2048x128.Idx) :
    out0_7 x0 x1 x2 x3 x4 x5 x6 y = blockFn x0 x1 x2 x3 x4 x5 x6 y := by
  rw [out0_7_eq]
  refine View.canon_apply_of_pieces (Val := Elt Ideal) (blockFn x0 x1 x2 x3 x4 x5 x6) _
    (List.forall_mem_cons.mpr ⟨?_, List.forall_mem_cons.mpr ⟨?_, fun _ h => absurd h List.not_mem_nil⟩⟩) y (cover0_7 _ _ y)
  · intro x
    obtain ⟨p, q, rfl⟩ : ∃ (p : Fin 1024) (q : Fin 128), x = ix2 p q := ⟨x 0, x 1, eq_ix2 x⟩
    refine (piece_hi x0 x1 x2 x3 x4 x5 x6 p q).trans ?_
    unfold blockFn
    exact congrArg₂ (blockAt x0 x1 x2 x3 x4 x5 x6) (Fin.ext (by
      show 1024 + p.val = 1024 + 1 * p.val
      omega)) (Fin.ext (by
      show q.val = 0 + 1 * q.val
      omega))
  · intro x
    obtain ⟨p, q, rfl⟩ : ∃ (p : Fin 1024) (q : Fin 128), x = ix2 p q := ⟨x 0, x 1, eq_ix2 x⟩
    refine (piece_lo x0 x1 x2 x3 x4 x5 x6 p q).trans ?_
    unfold blockFn
    exact congrArg₂ (blockAt x0 x1 x2 x3 x4 x5 x6) (Fin.ext (by
      show p.val = 0 + 1 * p.val
      omega)) (Fin.ext (by
      show q.val = 0 + 1 * q.val
      omega))

/-! ## The staged blocks, read off the arrays the region finds -/

variable (m : (ℓ : Loc nD τ sig) → Buf (Elt Ideal) ℓ) (ρ : Dev nD → PrngReg)

/-- The printed index maps over the grid: windows 0 and 7 move with the point along the rows, the rest stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem iblk0_at (c : Dev nD) (t : Fin cfg0.N) (R : Fin 4096) (i : Fin 33) :
    iblk m c 0 t (ix2 R i) = (V m c main_v8 : S32768x33.Idx → EReal)
      (ix2 ⟨4096 * t.val + R.val, by have := t.isLt; have hN : cfg0.N = 8 := N_0; have := R.isLt; omega⟩ i) := by
  obtain ⟨e0, e1, -⟩ := idx_facts t
  show V m c main_v8 (((cfg0.win 0).blk t).view.emb (ix2 R i)) = V m c main_v8 _
  refine congrArg (V m c main_v8) (funext fun a => Fin.ext ?_)
  match a with
  | ⟨0, _⟩ =>
    show win0_0.index t (0 : Fin 2) * 4096 + 1 * R.val = 4096 * t.val + R.val
    rw [e0]; omega
  | ⟨1, _⟩ =>
    show win0_0.index t (1 : Fin 2) * 33 + 1 * i.val = i.val
    rw [e1]; omega

theorem iblk1_at (c : Dev nD) (t : Fin cfg0.N) (i : Fin 33) (k : Fin 4096) :
    iblk m c 1 t (ix2 i k) = (V m c main_v11 : S33x4096.Idx → EReal) (ix2 i k) := by
  obtain ⟨-, -, e0, e1, -⟩ := idx_facts t
  show V m c main_v11 (((cfg0.win 1).blk t).view.emb (ix2 i k)) = V m c main_v11 _
  refine congrArg (V m c main_v11) (funext fun a => Fin.ext ?_)
  match a with
  | ⟨0, _⟩ =>
    show win0_1.index t (0 : Fin 2) * 33 + 1 * i.val = i.val
    rw [e0]; omega
  | ⟨1, _⟩ =>
    show win0_1.index t (1 : Fin 2) * 4096 + 1 * k.val = k.val
    rw [e1]; omega

theorem iblk2_at (c : Dev nD) (t : Fin cfg0.N) (k : Fin 4096) (a : Fin 32) :
    iblk m c 2 t (ix2 k a) = (V m c main_v15 : S4096x32.Idx → EReal) (ix2 k a) := by
  obtain ⟨-, -, -, -, e0, e1, -⟩ := idx_facts t
  show V m c main_v15 (((cfg0.win 2).blk t).view.emb (ix2 k a)) = V m c main_v15 _
  refine congrArg (V m c main_v15) (funext fun b => Fin.ext ?_)
  match b with
  | ⟨0, _⟩ =>
    show win0_2.index t (0 : Fin 2) * 4096 + 1 * k.val = k.val
    rw [e0]; omega
  | ⟨1, _⟩ =>
    show win0_2.index t (1 : Fin 2) * 32 + 1 * a.val = a.val
    rw [e1]; omega

theorem iblk3_at (c : Dev nD) (t : Fin cfg0.N) (a : Fin 32) :
    iblk m c 3 t (ix2 (0 : Fin 1) a) = (V m c main_v16 : S1x32.Idx → EReal) (ix2 (0 : Fin 1) a) := by
  obtain ⟨-, -, -, -, -, -, e0, e1, -⟩ := idx_facts t
  show V m c main_v16 (((cfg0.win 3).blk t).view.emb (ix2 (0 : Fin 1) a)) = V m c main_v16 _
  refine congrArg (V m c main_v16) (funext fun b => Fin.ext ?_)
  match b with
  | ⟨0, _⟩ =>
    show win0_3.index t (0 : Fin 2) * 1 + 1 * 0 = 0
    rw [e0]
  | ⟨1, _⟩ =>
    show win0_3.index t (1 : Fin 2) * 32 + 1 * a.val = a.val
    rw [e1]; omega

theorem iblk4_at (c : Dev nD) (t : Fin cfg0.N) (j : Fin 65) (k : Fin 4096) :
    iblk m c 4 t (ix2 j k) = (V m c main_v14 : S65x4096.Idx → EReal) (ix2 j k) := by
  obtain ⟨-, -, -, -, -, -, -, -, e0, e1, -⟩ := idx_facts t
  show V m c main_v14 (((cfg0.win 4).blk t).view.emb (ix2 j k)) = V m c main_v14 _
  refine congrArg (V m c main_v14) (funext fun a => Fin.ext ?_)
  match a with
  | ⟨0, _⟩ =>
    show win0_4.index t (0 : Fin 2) * 65 + 1 * j.val = j.val
    rw [e0]; omega
  | ⟨1, _⟩ =>
    show win0_4.index t (1 : Fin 2) * 4096 + 1 * k.val = k.val
    rw [e1]; omega

theorem iblk5_at (c : Dev nD) (t : Fin cfg0.N) (k : Fin 4096) (q : Fin 128) :
    iblk m c 5 t (ix2 k q) = (V m c main_v17 : S4096x128.Idx → EReal) (ix2 k q) := by
  obtain ⟨-, -, -, -, -, -, -, -, -, -, e0, e1, -⟩ := idx_facts t
  show V m c main_v17 (((cfg0.win 5).blk t).view.emb (ix2 k q)) = V m c main_v17 _
  refine congrArg (V m c main_v17) (funext fun a => Fin.ext ?_)
  match a with
  | ⟨0, _⟩ =>
    show win0_5.index t (0 : Fin 2) * 4096 + 1 * k.val = k.val
    rw [e0]; omega
  | ⟨1, _⟩ =>
    show win0_5.index t (1 : Fin 2) * 128 + 1 * q.val = q.val
    rw [e1]; omega

theorem iblk6_at (c : Dev nD) (t : Fin cfg0.N) (q : Fin 128) :
    iblk m c 6 t (ix2 (0 : Fin 1) q) = (V m c main_v18 : S1x128.Idx → EReal) (ix2 (0 : Fin 1) q) := by
  obtain ⟨-, -, -, -, -, -, -, -, -, -, -, -, e0, e1, -⟩ := idx_facts t
  show V m c main_v18 (((cfg0.win 6).blk t).view.emb (ix2 (0 : Fin 1) q)) = V m c main_v18 _
  refine congrArg (V m c main_v18) (funext fun a => Fin.ext ?_)
  match a with
  | ⟨0, _⟩ =>
    show win0_6.index t (0 : Fin 2) * 1 + 1 * 0 = 0
    rw [e0]
  | ⟨1, _⟩ =>
    show win0_6.index t (1 : Fin 2) * 128 + 1 * q.val = q.val
    rw [e1]; omega

/-! ## A block of the result is a block of `G` -/

/-- `G` of this device's argument arrays. -/
abbrev Gk (c : Dev nD) : FVec Ideal S16384x128 .f32 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The `state` row of output row `r` at point `t`, as staged: row `2048 t + r` of `state` with a 1 appended. -/
theorem xrow_state (c : Dev nD) (t : Fin cfg0.N) (r : Fin 2048) (hN : cfg0.N = 8) :
    (fun i : Fin 33 => iblk m c 0 t (ix2 ⟨r.val + 1024 * (r.val / 1024), by have := r.isLt; omega⟩ i))
      = augRow (fun a => (m ((c : Thread nD τ).loc main_arg0)) (ix2 ⟨2048 * t.val + r.val, by have := t.isLt; have := r.isLt; omega⟩ a)) := by
  have ht := t.isLt
  have hr := r.isLt
  funext i
  rw [iblk0_at, V8_eq]
  refine ((congrArg (fun R => stacked _ _ (ix2 R i)) (Fin.ext (by
    show 4096 * t.val + (r.val + 1024 * (r.val / 1024)) = 2048 * (2 * t.val + r.val / 1024) + r.val % 1024
    omega))).trans (stacked_lo _ _ ⟨2 * t.val + r.val / 1024, by omega⟩ ⟨r.val % 1024, by omega⟩ i)).trans ?_
  rw [withOnes_apply]
  exact congrArg (fun R => augRow (fun a => (m ((c : Thread nD τ).loc main_arg0)) (ix2 R a)) i) (Fin.ext (by
    show 1024 * (2 * t.val + r.val / 1024) + r.val % 1024 = 2048 * t.val + r.val
    omega))

/-- Its `next_state` row, 1024 block rows further: row `2048 t + r` of `next_state` with a 1 appended. -/
theorem xrow_next (c : Dev nD) (t : Fin cfg0.N) (r : Fin 2048) (hN : cfg0.N = 8) :
    (fun i : Fin 33 => iblk m c 0 t (ix2 ⟨r.val + 1024 * (r.val / 1024) + 1024, by have := r.isLt; omega⟩ i))
      = augRow (fun a => (m ((c : Thread nD τ).loc main_arg1)) (ix2 ⟨2048 * t.val + r.val, by have := t.isLt; have := r.isLt; omega⟩ a)) := by
  have ht := t.isLt
  have hr := r.isLt
  funext i
  rw [iblk0_at, V8_eq]
  refine ((congrArg (fun R => stacked _ _ (ix2 R i)) (Fin.ext (by
    show 4096 * t.val + (r.val + 1024 * (r.val / 1024) + 1024) = 2048 * (2 * t.val + r.val / 1024) + 1024 + r.val % 1024
    omega))).trans (stacked_hi _ _ ⟨2 * t.val + r.val / 1024, by omega⟩ ⟨r.val % 1024, by omega⟩ i)).trans ?_
  rw [withOnes_apply]
  exact congrArg (fun R => augRow (fun a => (m ((c : Thread nD τ).loc main_arg1)) (ix2 R a)) i) (Fin.ext (by
    show 1024 * (2 * t.val + r.val / 1024) + r.val % 1024 = 2048 * t.val + r.val
    omega))

/-- Entry `(r, q)` of point `t`'s output block is `G` at row `2048 t + r`. -/
theorem block_eq_G (c : Dev nD) (t : Fin cfg0.N) (r : Fin 2048) (q : Fin 128) (hN : cfg0.N = 8) :
    blockAt (iblk m c 0 t) (iblk m c 1 t) (iblk m c 2 t) (iblk m c 3 t) (iblk m c 4 t) (iblk m c 5 t) (iblk m c 6 t) r q
      = Gk m c (ix2 ⟨2048 * t.val + r.val, by have := t.isLt; have := r.isLt; omega⟩ q) := by
  have hA1 : (fun (i : Fin 33) (k : Fin 4096) => iblk m c 1 t (ix2 i k))
      = augMat (fun a k => (m ((c : Thread nD τ).loc main_arg2)) (ix2 a k)) (fun k => (m ((c : Thread nD τ).loc main_arg3)) (ix1 k)) :=
    funext fun i => funext fun k => (iblk1_at m c t i k).trans (V11_at m c i k)
  have hA2 : (fun (k : Fin 4096) (a : Fin 32) => iblk m c 2 t (ix2 k a)) = fun k a => (m ((c : Thread nD τ).loc main_arg4)) (ix2 k a) :=
    funext fun k => funext fun a => (iblk2_at m c t k a).trans (congrFun (V15_eq m c) (ix2 k a))
  have hc2 : (fun a : Fin 32 => iblk m c 3 t (ix2 (0 : Fin 1) a)) = fun a => (m ((c : Thread nD τ).loc main_arg5)) (ix1 a) :=
    funext fun a => (iblk3_at m c t a).trans (V16_at m c a)
  have hA4 : (fun (j : Fin 65) (k : Fin 4096) => iblk m c 4 t (ix2 j k))
      = augMat (fun a k => (m ((c : Thread nD τ).loc main_arg6)) (ix2 a k)) (fun k => (m ((c : Thread nD τ).loc main_arg7)) (ix1 k)) :=
    funext fun j => funext fun k => (iblk4_at m c t j k).trans (V14_at m c j k)
  have hA5 : (fun (k : Fin 4096) (a : Fin 128) => iblk m c 5 t (ix2 k a)) = fun k a => (m ((c : Thread nD τ).loc main_arg8)) (ix2 k a) :=
    funext fun k => funext fun a => (iblk5_at m c t k a).trans (congrFun (V17_eq m c) (ix2 k a))
  have hc6 : (fun a : Fin 128 => iblk m c 6 t (ix2 (0 : Fin 1) a)) = fun a => (m ((c : Thread nD τ).loc main_arg9)) (ix1 a) :=
    funext fun a => (iblk6_at m c t a).trans (V18_at m c a)
  unfold blockAt
  rw [xrow_state m c t r hN, xrow_next m c t r hN, hA1, hA2, hc2, hA4, hA5, hc6, hidRow_aug, hidRow_aug, outRow_aug]
  rfl

/-- WHAT POINT `t` WRITES BACK is block `t` of `G`. -/
theorem flushed_eq (c : Dev nD) (t : Fin cfg0.N) :
    (dats m 0 c).flushed 7 t = ((cfg0.win 7).blk t).view.read (Elt Ideal) (Gk m c) := by
  have hN : cfg0.N = 8 := N_0
  have ht := t.isLt
  rw [Value.flushed7]
  funext y
  show out0_7 (iblk m c 0 t) (iblk m c 1 t) (iblk m c 2 t) (iblk m c 3 t) (iblk m c 4 t) (iblk m c 5 t) (iblk m c 6 t) y = Gk m c (((cfg0.win 7).blk t).view.emb y)
  rw [out0_7_apply]
  obtain ⟨r, q, rfl⟩ : ∃ (r : Fin 2048) (q : Fin 128), y = ix2 r q := ⟨y 0, y 1, eq_ix2 y⟩
  have hr := r.isLt
  obtain ⟨-, -, -, -, -, -, -, -, -, -, -, -, -, -, e0, e1⟩ := idx_facts t
  have hemb : ((cfg0.win 7).blk t).view.emb (ix2 r q) = ix2 (⟨2048 * t.val + r.val, by omega⟩ : Fin 16384) q :=
    funext fun a => Fin.ext (by
      match a with
      | ⟨0, _⟩ =>
        show win0_7.index t (0 : Fin 2) * 2048 + 1 * r.val = 2048 * t.val + r.val
        rw [e0]; omega
      | ⟨1, _⟩ =>
        show win0_7.index t (1 : Fin 2) * 128 + 1 * q.val = q.val
        rw [e1]; omega)
  rw [hemb]
  exact block_eq_G m c t r q hN

/-- Every index of the result array is in the block of the point `row / 2048`. -/
theorem cover (i : S16384x128.Idx) :
    ∃ t : Fin cfg0.N, (cfg0.win 7).flush t = true ∧ i ∈ ((cfg0.win 7).blk t).view.set := by
  have hN : cfg0.N = 8 := N_0
  have h0 : (i 0).val < 16384 := idx2_lt0 i
  have h1 : (i 1).val < 128 := idx2_lt1 i
  obtain ⟨t, htv⟩ : ∃ t : Fin cfg0.N, t.val = (i 0).val / 2048 := ⟨⟨(i 0).val / 2048, by omega⟩, rfl⟩
  obtain ⟨-, -, -, -, -, -, -, -, -, -, -, -, -, -, e0, e1⟩ := idx_facts t
  refine ⟨t, flush0_7 t, ?_⟩
  show i ∈ ((View.whole main_v19).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [e0]; omega
  | ⟨1, _⟩ =>
    show win0_7.index t (1 : Fin 2) * 128 ≤ (i 1).val ∧ (i 1).val < win0_7.index t (1 : Fin 2) * 128 + 128
    rw [e1]; omega

/-- The result array after the run is `G` of the arguments. -/
theorem final (c : Dev nD) : (dats m 0 c).arrAt 7 cfg0.N = Gk m c :=
  (dats m 0 c).arrAt_eq_of_cover 7 (Gk m c) (fun t _ => flushed_eq m c t) cover

/-- The run: the result array at `G` of the arguments, the arguments unchanged. -/
theorem run : θ_run defs (onTc (τ := τ) (main (F := Ideal))) ⟨m, fun _ => 0, ρ⟩ fun r => ∀ c : Dev nD,
      r.2.mem ((c : Thread nD τ).loc main_v19) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KVal

end
-- ==== Proof.RefIsG.lean ====
/-
  The reference's result is `G` of the arguments.

  Read one operation at a time: the first matrix product, bias and rectifier give the hidden layer of a branch; the second
  product, bias and rectifier give `net` of the row; the two branches (the same operations on `state` and on
  `next_state`) are joined along the columns (`side`); the third product, bias, rectifier, fourth product and bias
  give `head`. Nothing but unfolding sums: no law of the extended reals is used here.
-/
import proofs.«138751_g11802570129985_cont_fleet_79_19_alg».proof.Proof.Gen.ReferenceIdeal.Read
import proofs.«138751_g11802570129985_cont_fleet_79_19_alg».proof.Proof.Spec
import Idealize.ShloMosaic.Lib.IdealHost

noncomputable section

namespace Cert.ReferenceIdeal.RefG

open Cert.ReferenceIdeal Cert.ReferenceIdeal.Gen Cert.ReferenceIdeal.Read Idealize.ShloMosaic Idealize.ShloMosaic.TcCoe
open Idealize.ShloMosaic.ValueIdx Cert.Siamese

variable (x0 x1 : FVec Ideal S16384x32 .f32) (x2 : FVec Ideal S32x4096 .f32) (x3 : FVec Ideal S4096 .f32)
  (x4 : FVec Ideal S4096x32 .f32) (x5 : FVec Ideal S32 .f32) (x6 : FVec Ideal S64x4096 .f32) (x7 : FVec Ideal S4096 .f32)
  (x8 : FVec Ideal S4096x128 .f32) (x9 : FVec Ideal S128 .f32)

theorem zero_f32 : FloatOps.ofBits (F := Ideal) .f32 0x00000000#32 = 0 := Ideal.ofBits_zero_f32

/-- A hidden unit of the first layer. -/
theorem v4_at (r : Fin 16384) (k : Fin 4096) :
    val_main_v4 (F := Ideal) x0 x2 x3 (ix2 r k) = max ((∑ i : Fin 32, x0 (ix2 r i) * x2 (ix2 i k)) + x3 (ix1 k)) 0 := by
  have e1 : ∀ i : Fin 32, lidx_main_v0 (ix2 r k) i = ix2 r i := fun i => funext fun a => Fin.ext (by
    match a with
    | ⟨0, _⟩ => rfl
    | ⟨1, _⟩ => rfl)
  have e2 : ∀ i : Fin 32, ridx_main_v0 (ix2 r k) i = ix2 i k := fun i => funext fun a => Fin.ext (by
    match a with
    | ⟨0, _⟩ => rfl
    | ⟨1, _⟩ => rfl)
  have e3 : idx_main_v1 (idx_main_v2 (ix2 r k)) = ix1 k := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [e1, e2, e3, Ideal.addf_def, Ideal.maximumf_def, zero_f32]

/-- A branch's output. -/
theorem v9_at (r : Fin 16384) (a : Fin 32) :
    val_main_v9 (F := Ideal) x0 x2 x3 x4 x5 (ix2 r a)
      = net (fun i => x0 (ix2 r i)) (fun i k => x2 (ix2 i k)) (fun k => x3 (ix1 k)) (fun k b => x4 (ix2 k b)) (fun b => x5 (ix1 b)) a := by
  have e1 : ∀ k : Fin 4096, lidx_main_v5 (ix2 r a) k = ix2 r k := fun k => funext fun b => Fin.ext (by
    match b with
    | ⟨0, _⟩ => rfl
    | ⟨1, _⟩ => rfl)
  have e2 : ∀ k : Fin 4096, ridx_main_v5 (ix2 r a) k = ix2 k a := fun k => funext fun b => Fin.ext (by
    match b with
    | ⟨0, _⟩ => rfl
    | ⟨1, _⟩ => rfl)
  have e3 : idx_main_v6 (idx_main_v7 (ix2 r a)) = ix1 a := funext fun b => Fin.ext (by
    match b with
    | ⟨0, _⟩ => rfl)
  rw [val_main_v9_apply, val_main_v8_apply, val_main_v5_apply, val_main_v7_apply, val_main_v6_apply,
    val_main_call1_v0_apply, val_main_call1_cst_apply]
  simp only [e1, e2, e3, v4_at, Ideal.addf_def, Ideal.maximumf_def, zero_f32]
  rfl

/-- The second branch is the first branch's operations on the other input. -/
theorem v19_eq_v9 : val_main_v19 (F := Ideal) x1 x2 x3 x4 x5 = val_main_v9 (F := Ideal) x1 x2 x3 x4 x5 := rfl

/-- The two branches side by side. -/
theorem v20_at (r : Fin 16384) (j : Fin 64) :
    val_main_v20 (F := Ideal) x0 x1 x2 x3 x4 x5 (ix2 r j)
      = side (fun a => val_main_v9 (F := Ideal) x0 x2 x3 x4 x5 (ix2 r a)) (fun a => val_main_v9 (F := Ideal) x1 x2 x3 x4 x5 (ix2 r a)) j := by
  unfold val_main_v20 side
  rw [v19_eq_v9]
  by_cases h : j.val < 32
  · rw [dif_pos h]
    exact concatenate_pair_apply_left (1 : Fin S16384x64.rank) _ _ concatenates_S16384x32_S16384x32_S16384x64_d1 (ix2 r j) rfl
      (ix2 r ⟨j.val, h⟩) (fun b => by
        match b with
        | ⟨0, _⟩ => rfl
        | ⟨1, _⟩ => rfl)
  · rw [dif_neg h]
    exact concatenate_pair_apply_right (1 : Fin S16384x64.rank) _ _ concatenates_S16384x32_S16384x32_S16384x64_d1 (ix2 r j) rfl rfl
      (ix2 r ⟨j.val - 32, by have := j.isLt; omega⟩) (fun b hb => by
        match b with
        | ⟨0, _⟩ => rfl
        | ⟨1, _⟩ => exact absurd rfl hb) (by
        show (j.val - 32) + 32 = j.val
        omega)

/-- A hidden unit of the third layer. -/
theorem v25_at (r : Fin 16384) (k : Fin 4096) :
    val_main_v25 (F := Ideal) x0 x1 x2 x3 x4 x5 x6 x7 (ix2 r k)
      = max ((∑ j : Fin 64, side (fun a => val_main_v9 (F := Ideal) x0 x2 x3 x4 x5 (ix2 r a))
          (fun a => val_main_v9 (F := Ideal) x1 x2 x3 x4 x5 (ix2 r a)) j * x6 (ix2 j k)) + x7 (ix1 k)) 0 := by
  have e1 : ∀ j : Fin 64, lidx_main_v21 (ix2 r k) j = ix2 r j := fun j => funext fun a => Fin.ext (by
    match a with
    | ⟨0, _⟩ => rfl
    | ⟨1, _⟩ => rfl)
  have e2 : ∀ j : Fin 64, ridx_main_v21 (ix2 r k) j = ix2 j k := fun j => funext fun a => Fin.ext (by
    match a with
    | ⟨0, _⟩ => rfl
    | ⟨1, _⟩ => rfl)
  have e3 : idx_main_v22 (idx_main_v23 (ix2 r k)) = ix1 k := funext fun a => Fin.ext (by
    match a with
    | ⟨0, _⟩ => rfl)
  rw [val_main_v25_apply, val_main_v24_apply, val_main_v21_apply, val_main_v23_apply, val_main_v22_apply,
    val_main_call4_v0_apply, val_main_call4_cst_apply]
  simp only [e1, e2, e3, v20_at, Ideal.addf_def, Ideal.maximumf_def, zero_f32]

/-- The reference's result array is `G` of its arguments. -/
theorem ref_eq_G : val_main_v29 (F := Ideal) x0 x1 x2 x3 x4 x5 x6 x7 x8 x9 = G x0 x1 x2 x3 x4 x5 x6 x7 x8 x9 := by
  funext i
  obtain ⟨r, q, rfl⟩ : ∃ (r : Fin 16384) (q : Fin 128), i = ix2 r q := ⟨i 0, i 1, eq_ix2 i⟩
  have e1 : ∀ k : Fin 4096, lidx_main_v26 (ix2 r q) k = ix2 r k := fun k => funext fun a => Fin.ext (by
    match a with
    | ⟨0, _⟩ => rfl
    | ⟨1, _⟩ => rfl)
  have e2 : ∀ k : Fin 4096, ridx_main_v26 (ix2 r q) k = ix2 k q := fun k => funext fun a => Fin.ext (by
    match a with
    | ⟨0, _⟩ => rfl
    | ⟨1, _⟩ => rfl)
  have e3 : idx_main_v27 (idx_main_v28 (ix2 r q)) = ix1 q := funext fun a => Fin.ext (by
    match a with
    | ⟨0, _⟩ => rfl)
  rw [val_main_v29_apply, val_main_v26_apply, val_main_v28_apply, val_main_v27_apply]
  simp only [e1, e2, e3, v25_at, v9_at, Ideal.addf_def]
  rfl

end Cert.ReferenceIdeal.RefG

end
-- ==== Proof.lean ====
/-
  A fused four-layer network against its plain reference, over the extended reals.

  The reference computes, per input row,
      o_s = relu (relu (state · W1 + b1) · W2 + b2),   o_n = the same of next_state,
      out = relu ([o_s, o_n] · W3 + b3) · W4 + b4.
  The kernel tiles the batch into 8 blocks of 2048 rows, stacks each block's `state` and `next_state` rows (two
  streams of 1024 + 1024 rows per block), folds `b1` and `b3` into the first and third matrix products by a column of
  ones, and takes the 4096 hidden units in 32 chunks of 128, adding each chunk's contribution to an accumulator that
  starts at the bias. At the ideal instance changes of float format are the identity, so both programs compute the
  one function `Cert.Siamese.G` of the arguments:
  * the reference, read one operation at a time (Proof/RefIsG.lean);
  * the kernel: what the body stores is two streams (Proof/Stream.lean), a stream read at an index is the row-level
    form `outRow (pairRow (hidRow ·) (hidRow ·))` (Proof/StreamAt.lean), the staged blocks are the stacked rows and the
    augmented matrices (Proof/HostArrays.lean), and the row-level form on those is `G` (Proof/KernelValue.lean, over
    Proof/Spec.lean's two laws: a sum over 4096 is the sum of 32 sums over 128, and `∑ i ≤ n, x i · w i` with
    `x n = 1` is `∑ i < n, x i · w i + w n`).
  Neither law needs finiteness, so the precondition is never opened. The idealization rewrote nothing, so
  `preserves` is trivial; the frames are the generated ones, and the reference's frame is its generated run.
-/
import proofs.«138751_g11802570129985_cont_fleet_79_19_alg».proof.Defs
import proofs.«138751_g11802570129985_cont_fleet_79_19_alg».proof.Proof.Gen.Kernel
import proofs.«138751_g11802570129985_cont_fleet_79_19_alg».proof.Proof.Gen.Kernel.Skeleton
import proofs.«138751_g11802570129985_cont_fleet_79_19_alg».proof.Proof.Gen.Kernel.Launch
import proofs.«138751_g11802570129985_cont_fleet_79_19_alg».proof.Proof.Gen.Kernel.Points
import proofs.«138751_g11802570129985_cont_fleet_79_19_alg».proof.Proof.Gen.Kernel.Frame
import proofs.«138751_g11802570129985_cont_fleet_79_19_alg».proof.Proof.Gen.KernelIdeal
import proofs.«138751_g11802570129985_cont_fleet_79_19_alg».proof.Proof.Gen.KernelIdeal.Skeleton
import proofs.«138751_g11802570129985_cont_fleet_79_19_alg».proof.Proof.Gen.KernelIdeal.Launch
import proofs.«138751_g11802570129985_cont_fleet_79_19_alg».proof.Proof.Gen.KernelIdeal.Points
import proofs.«138751_g11802570129985_cont_fleet_79_19_alg».proof.Proof.Gen.KernelIdeal.Frame
import proofs.«138751_g11802570129985_cont_fleet_79_19_alg».proof.Proof.Gen.ReferenceIdeal
import proofs.«138751_g11802570129985_cont_fleet_79_19_alg».proof.Proof.Gen.Pre_finite_inputs
import proofs.«138751_g11802570129985_cont_fleet_79_19_alg».proof.Proof.Gen.KernelIdeal.Value
import proofs.«138751_g11802570129985_cont_fleet_79_19_alg».proof.Proof.Gen.ReferenceIdeal.Run
import proofs.«138751_g11802570129985_cont_fleet_79_19_alg».proof.Proof.Gen.ReferenceIdeal.Read
import proofs.«138751_g11802570129985_cont_fleet_79_19_alg».proof.Proof.KernelValue
import proofs.«138751_g11802570129985_cont_fleet_79_19_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `G` of arguments that agree. -/
theorem algebraic : Cert.algebraic_KernelIdeal_ReferenceIdeal := by
  intro m ρ m' ρ' _ hagree
  refine ⟨fun c => Cert.KernelIdeal.KVal.Gk m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v29_eq, Cert.ReferenceIdeal.RefG.ref_eq_G, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
